-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S3072x1024 : Shape := ⟨2, ![3072, 1024]⟩
abbrev S3072 : Shape := ⟨1, ![3072]⟩
abbrev S16x1024x8 : Shape := ⟨3, ![16, 1024, 8]⟩
abbrev S16x8x1024 : Shape := ⟨3, ![16, 8, 1024]⟩
abbrev S8x1 : Shape := ⟨2, ![8, 1]⟩
abbrev S16 : Shape := ⟨1, ![16]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024x8 : S_.BroadcastsInDim S16x1024x8 (![] : Fin 0 → Fin S16x1024x8.rank)
  reducesTo_S16x1024x8_S_d0_1_2 : S16x1024x8.ReducesTo [0, 1, 2] S_
  bcast_S_S16x8x1024 : S_.BroadcastsInDim S16x8x1024 (![] : Fin 0 → Fin S16x8x1024.rank)
  reducesTo_S16x8x1024_S_d0_1_2 : S16x8x1024.ReducesTo [0, 1, 2] S_
  bcast_S_S8x1 : S_.BroadcastsInDim S8x1 (![] : Fin 0 → Fin S8x1.rank)
  reducesTo_S8x1_S_d0_1 : S8x1.ReducesTo [0, 1] S_

variable [Facts]

def fn_part2 {F : FTy → Type} [FloatOps F] (main_arg7 : IVec S8x1 32) (main_v33 : IVec S_ 1) : IVec S_ 1 :=
  let main_c_12 : IVec S_ 32 := constantI S_ 32 4294967280#32
  let main_v34 : IVec S8x1 32 := broadcastInDim S8x1 ![] bcast_S_S8x1 main_c_12
  let main_v35 : IVec S8x1 1 := cmpi .sge main_arg7 main_v34
  let main_c_13 : IVec S_ 32 := constantI S_ 32 16#32
  let main_v36 : IVec S8x1 32 := broadcastInDim S8x1 ![] bcast_S_S8x1 main_c_13
  let main_v37 : IVec S8x1 1 := cmpi .slt main_arg7 main_v36
  let main_v38 : IVec S8x1 1 := andi main_v35 main_v37
  let main_c_14 : IVec S_ 1 := constantI S_ 1 1#1
  let main_v39 : IVec S_ 1 := (fun x v => Host.reduce IntOp.andi x v reducesTo_S8x1_S_d0_1 h_S_) main_v38 main_c_14
  let main_v40 : IVec S_ 1 := andi main_v33 main_v39
  main_v40

def fn_part1 {F : FTy → Type} [FloatOps F] (main_arg4 : FVec F S16x8x1024 .f32) (main_arg5 : FVec F S16x1024x8 .f32) (main_arg6 : FVec F S16x8x1024 .f32) (main_arg7 : IVec S8x1 32) (main_v13 : IVec S_ 1) (main_v16 : IVec S16x1024x8 1) : IVec S_ 1 :=
  let main_c_5 : IVec S_ 1 := constantI S_ 1 1#1
  let main_v17 : IVec S_ 1 := (fun x v => Host.reduce IntOp.andi x v reducesTo_S16x1024x8_S_d0_1_2 h_S_) main_v16 main_c_5
  let main_v18 : IVec S_ 1 := andi main_v13 main_v17
  let main_v19 : FVec F S16x8x1024 .f32 := Host.absf main_arg4
  let main_cst_6 : FVec F S_ .f32 := constant S_ .f32 0x7F800000#32
  let main_v20 : FVec F S16x8x1024 .f32 := broadcastInDim S16x8x1024 ![] bcast_S_S16x8x1024 main_cst_6
  let main_v21 : IVec S16x8x1024 1 := cmpf .olt main_v19 main_v20
  let main_c_7 : IVec S_ 1 := constantI S_ 1 1#1
  let main_v22 : IVec S_ 1 := (fun x v => Host.reduce IntOp.andi x v reducesTo_S16x8x1024_S_d0_1_2 h_S_) main_v21 main_c_7
  let main_v23 : IVec S_ 1 := andi main_v18 main_v22
  let main_v24 : FVec F S16x1024x8 .f32 := Host.absf main_arg5
  let main_cst_8 : FVec F S_ .f32 := constant S_ .f32 0x7F800000#32
  let main_v25 : FVec F S16x1024x8 .f32 := broadcastInDim S16x1024x8 ![] bcast_S_S16x1024x8 main_cst_8
  let main_v26 : IVec S16x1024x8 1 := cmpf .olt main_v24 main_v25
  let main_c_9 : IVec S_ 1 := constantI S_ 1 1#1
  let main_v27 : IVec S_ 1 := (fun x v => Host.reduce IntOp.andi x v reducesTo_S16x1024x8_S_d0_1_2 h_S_) main_v26 main_c_9
  let main_v28 : IVec S_ 1 := andi main_v23 main_v27
  let main_v29 : FVec F S16x8x1024 .f32 := Host.absf main_arg6
  let main_cst_10 : FVec F S_ .f32 := constant S_ .f32 0x7F800000#32
  let main_v30 : FVec F S16x8x1024 .f32 := broadcastInDim S16x8x1024 ![] bcast_S_S16x8x1024 main_cst_10
  let main_v31 : IVec S16x8x1024 1 := cmpf .olt main_v29 main_v30
  let main_c_11 : IVec S_ 1 := constantI S_ 1 1#1
  let main_v32 : IVec S_ 1 := (fun x v => Host.reduce IntOp.andi x v reducesTo_S16x8x1024_S_d0_1_2 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S3072x1024 .f32) (main_arg2 : FVec F S3072 .f32) (main_arg3 : FVec F S16x1024x8 .f32) (main_arg4 : FVec F S16x8x1024 .f32) (main_arg5 : FVec F S16x1024x8 .f32) (main_arg6 : FVec F S16x8x1024 .f32) (main_arg7 : IVec S8x1 32) (main_arg8 : IVec S16 1) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024x8 .f32 := Host.absf main_arg3
  let main_cst_4 : FVec F S_ .f32 := constant S_ .f32 0x7F800000#32
  let main_v15 : FVec F S16x1024x8 .f32 := broadcastInDim S16x1024x8 ![] bcast_S_S16x1024x8 main_cst_4
  let main_v16 : IVec S16x1024x8 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S3072x1024 : Shape := ⟨2, ![3072, 1024]⟩
abbrev S3072 : Shape := ⟨1, ![3072]⟩
abbrev S16x1024x8 : Shape := ⟨3, ![16, 1024, 8]⟩
abbrev S16x8x1024 : Shape := ⟨3, ![16, 8, 1024]⟩
abbrev S8x1 : Shape := ⟨2, ![8, 1]⟩
abbrev S16 : Shape := ⟨1, ![16]⟩
abbrev S8 : Shape := ⟨1, ![8]⟩
abbrev S_ : Shape := ⟨0, ![]⟩
abbrev S8x1x1 : Shape := ⟨3, ![8, 1, 1]⟩
abbrev S1 : Shape := ⟨1, ![1]⟩
abbrev S1x1 : Shape := ⟨2, ![1, 1]⟩
abbrev S8x1024x8 : Shape := ⟨3, ![8, 1024, 8]⟩
abbrev S8x8x1024 : Shape := ⟨3, ![8, 8, 1024]⟩
abbrev S8x1024x16 : Shape := ⟨3, ![8, 1024, 16]⟩
abbrev S8x8x2048 : Shape := ⟨3, ![8, 8, 2048]⟩
abbrev S8x16x2048 : Shape := ⟨3, ![8, 16, 2048]⟩
abbrev S1024x3072 : Shape := ⟨2, ![1024, 3072]⟩
abbrev S1x3072 : Shape := ⟨2, ![1, 3072]⟩
abbrev S8x4096x3072 : Shape := ⟨3, ![8, 4096, 3072]⟩
abbrev S1x512x1024 : Shape := ⟨3, ![1, 512, 1024]⟩
abbrev S1x1024x16 : Shape := ⟨3, ![1, 1024, 16]⟩
abbrev S1x16x2048 : Shape := ⟨3, ![1, 16, 2048]⟩
abbrev S1x512x3072 : Shape := ⟨3, ![1, 512, 3072]⟩
abbrev S512x1024 : Shape := ⟨2, ![512, 1024]⟩
abbrev S512x3072 : Shape := ⟨2, ![512, 3072]⟩
abbrev S1024x16 : Shape := ⟨2, ![1024, 16]⟩
abbrev S16x2048 : Shape := ⟨2, ![16, 2048]⟩
abbrev S512x16 : Shape := ⟨2, ![512, 16]⟩
abbrev S512x2048 : Shape := ⟨2, ![512, 2048]⟩

abbrev nBuf : Space → Nat
  | .hbm => 133
  | .vmem => 10
  | .smem => 0
  | _ => 0

abbrev hbmTy0_0 (i : Nat) : BufTy := match i % 128 with
  | 0 => ⟨S8x4096x1024, .f32⟩
  | 1 => ⟨S3072x1024, .f32⟩
  | 2 => ⟨S3072, .f32⟩
  | 3 => ⟨S16x1024x8, .f32⟩
  | 4 => ⟨S16x8x1024, .f32⟩
  | 5 => ⟨S16x1024x8, .f32⟩
  | 6 => ⟨S16x8x1024, .f32⟩
  | 7 => ⟨S8x1, .i32⟩
  | 8 => ⟨S16, .i1⟩
  | 9 => ⟨S8, .i32⟩
  | 10 => ⟨S_, .i32⟩
  | 11 => ⟨S8, .i32⟩
  | 12 => ⟨S8, .i1⟩
  | 13 => ⟨S_, .i32⟩
  | 14 => ⟨S8, .i32⟩
  | 15 => ⟨S8, .i32⟩
  | 16 => ⟨S8, .i32⟩
  | 17 => ⟨S8x1, .i32⟩
  | 18 => ⟨S8, .i1⟩
  | 19 => ⟨S8x1x1, .i1⟩
  | 20 => ⟨S_, .i32⟩
  | 21 => ⟨S8, .i32⟩
  | 22 => ⟨S8, .i1⟩
  | 23 => ⟨S_, .i32⟩
  | 24 => ⟨S8, .i32⟩
  | 25 => ⟨S8, .i32⟩
  | 26 => ⟨S8, .i32⟩
  | 27 => ⟨S8x1, .i32⟩
  | 28 => ⟨S1, .i32⟩
  | 29 => ⟨S_, .i32⟩
  | 30 => ⟨S8x1, .i32⟩
  | 31 => ⟨S8x1, .i1⟩
  | 32 => ⟨S1x1, .i32⟩
  | 33 => ⟨S8x1, .i32⟩
  | 34 => ⟨S8x1, .i1⟩
  | 35 => ⟨S8x1, .i1⟩
  | 36 => ⟨S_, .i1⟩
  | 37 => ⟨S8, .i1⟩
  | 38 => ⟨S8x1024x8, .f32⟩
  | 39 => ⟨S8x1024x8, .i1⟩
  | 40 => ⟨S_, .f32⟩
  | 41 => ⟨S8x1024x8, .f32⟩
  | 42 => ⟨S8x1024x8, .f32⟩
  | 43 => ⟨S8x1024x8, .i1⟩
  | 44 => ⟨S8x1024x8, .f32⟩
  | 45 => ⟨S_, .i32⟩
  | 46 => ⟨S8, .i32⟩
  | 47 => ⟨S8, .i1⟩
  | 48 => ⟨S_, .i32⟩
  | 49 => ⟨S8, .i32⟩
  | 50 => ⟨S8, .i32⟩
  | 51 => ⟨S8, .i32⟩
  | 52 => ⟨S8x1, .i32⟩
  | 53 => ⟨S1, .i32⟩
  | 54 => ⟨S_, .i32⟩
  | 55 => ⟨S8x1, .i32⟩
  | 56 => ⟨S8x1, .i1⟩
  | 57 => ⟨S1x1, .i32⟩
  | 58 => ⟨S8x1, .i32⟩
  | 59 => ⟨S8x1, .i1⟩
  | 60 => ⟨S8x1, .i1⟩
  | 61 => ⟨S_, .i1⟩
  | 62 => ⟨S8, .i1⟩
  | 63 => ⟨S8x8x1024, .f32⟩
  | 64 => ⟨S8x8x1024, .i1⟩
  | 65 => ⟨S_, .f32⟩
  | 66 => ⟨S8x8x1024, .f32⟩
  | 67 => ⟨S8x8x1024, .f32⟩
  | 68 => ⟨S8x8x1024, .i1⟩
  | 69 => ⟨S8x8x1024, .f32⟩
  | 70 => ⟨S_, .i32⟩
  | 71 => ⟨S8, .i32⟩
  | 72 => ⟨S8, .i1⟩
  | 73 => ⟨S_, .i32⟩
  | 74 => ⟨S8, .i32⟩
  | 75 => ⟨S8, .i32⟩
  | 76 => ⟨S8, .i32⟩
  | 77 => ⟨S8x1, .i32⟩
  | 78 => ⟨S1, .i32⟩
  | 79 => ⟨S_, .i32⟩
  | 80 => ⟨S8x1, .i32⟩
  | 81 => ⟨S8x1, .i1⟩
  | 82 => ⟨S1x1, .i32⟩
  | 83 => ⟨S8x1, .i32⟩
  | 84 => ⟨S8x1, .i1⟩
  | 85 => ⟨S8x1, .i1⟩
  | 86 => ⟨S_, .i1⟩
  | 87 => ⟨S8, .i1⟩
  | 88 => ⟨S8x1024x8, .f32⟩
  | 89 => ⟨S8x1024x8, .i1⟩
  | 90 => ⟨S_, .f32⟩
  | 91 => ⟨S8x1024x8, .f32⟩
  | 92 => ⟨S8x1024x8, .f32⟩
  | 93 => ⟨S8x1024x8, .i1⟩
  | 94 => ⟨S8x1024x8, .f32⟩
  | 95 => ⟨S_, .i32⟩
  | 96 => ⟨S8, .i32⟩
  | 97 => ⟨S8, .i1⟩
  | 98 => ⟨S_, .i32⟩
  | 99 => ⟨S8, .i32⟩
  | 100 => ⟨S8, .i32⟩
  | 101 => ⟨S8, .i32⟩
  | 102 => ⟨S8x1, .i32⟩
  | 103 => ⟨S1, .i32⟩
  | 104 => ⟨S_, .i32⟩
  | 105 => ⟨S8x1, .i32⟩
  | 106 => ⟨S8x1, .i1⟩
  | 107 => ⟨S1x1, .i32⟩
  | 108 => ⟨S8x1, .i32⟩
  | 109 => ⟨S8x1, .i1⟩
  | 110 => ⟨S8x1, .i1⟩
  | 111 => ⟨S_, .i1⟩
  | 112 => ⟨S8, .i1⟩
  | 113 => ⟨S8x8x1024, .f32⟩
  | 114 => ⟨S8x8x1024, .i1⟩
  | 115 => ⟨S_, .f32⟩
  | 116 => ⟨S8x8x1024, .f32⟩
  | 117 => ⟨S8x8x1024, .f32⟩
  | 118 => ⟨S8x8x1024, .i1⟩
  | 119 => ⟨S8x8x1024, .f32⟩
  | 120 => ⟨S8x1024x16, .f32⟩
  | 121 => ⟨S8x1024x16, .bf16⟩
  | 122 => ⟨S_, .bf16⟩
  | 123 => ⟨S8x8x1024, .bf16⟩
  | 124 => ⟨S8x8x1024, .bf16⟩
  | 125 => ⟨S8x8x1024, .bf16⟩
  | 126 => ⟨S8x8x2048, .bf16⟩
  | 127 => ⟨S8x8x2048, .bf16⟩
  | _ => ⟨S8x4096x1024, .f32⟩

abbrev hbmTy0_1 (i : Nat) : BufTy := match i % 128 with
  | 0 => ⟨S8x16x2048, .bf16⟩
  | 1 => ⟨S3072x1024, .bf16⟩
  | 2 => ⟨S1024x3072, .bf16⟩
  | 3 => ⟨S1x3072, .f32⟩
  | 4 => ⟨S8x4096x3072, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1x1024x16, .bf16⟩
  | .local _ .vmem, ⟨5, _⟩ => ⟨S1x1024x16, .bf16⟩
  | .local _ .vmem, ⟨6, _⟩ => ⟨S1x16x2048, .bf16⟩
  | .local _ .vmem, ⟨7, _⟩ => ⟨S1x16x2048, .bf16⟩
  | .local _ .vmem, ⟨8, _⟩ => ⟨S1x512x3072, .f32⟩
  | .local _ .vmem, ⟨9, _⟩ => ⟨S1x512x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v9 : Ref sig .tc := ⟨.hbm, 42, rfl⟩
abbrev main_call1_v0 : Ref sig .tc := ⟨.hbm, 43, rfl⟩
abbrev main_v10 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_call2_cst : Ref sig .tc := ⟨.hbm, 65, rfl⟩
abbrev main_call2_v15 : Ref sig .tc := ⟨.hbm, 66, rfl⟩
abbrev main_v11 : Ref sig .tc := ⟨.hbm, 67, rfl⟩
abbrev main_call3_v0 : Ref sig .tc := ⟨.hbm, 68, rfl⟩
abbrev main_v12 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_call4_cst : Ref sig .tc := ⟨.hbm, 90, rfl⟩
abbrev main_call4_v15 : Ref sig .tc := ⟨.hbm, 91, rfl⟩
abbrev main_v13 : Ref sig .tc := ⟨.hbm, 92, rfl⟩
abbrev main_call5_v0 : Ref sig .tc := ⟨.hbm, 93, rfl⟩
abbrev main_v14 : Ref sig .tc := ⟨.hbm, 94, rfl⟩
abbrev main_call6_c : Ref sig .tc := ⟨.hbm, 95, rfl⟩
abbrev main_call6_v0 : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_v5 : Ref sig .tc := ⟨.hbm, 102, rfl⟩
abbrev main_call6_c_1 : Ref sig .tc := ⟨.hbm, 103, rfl⟩
abbrev main_call6_c_2 : Ref sig .tc := ⟨.hbm, 104, rfl⟩
abbrev main_call6_v6 : Ref sig .tc := ⟨.hbm, 105, rfl⟩
abbrev main_call6_v7 : Ref sig .tc := ⟨.hbm, 106, rfl⟩
abbrev main_call6_v8 : Ref sig .tc := ⟨.hbm, 107, rfl⟩
abbrev main_call6_v9 : Ref sig .tc := ⟨.hbm, 108, rfl⟩
abbrev main_call6_v10 : Ref sig .tc := ⟨.hbm, 109, rfl⟩
abbrev main_call6_v11 : Ref sig .tc := ⟨.hbm, 110, rfl⟩
abbrev main_call6_c_3 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_call6_cst : Ref sig .tc := ⟨.hbm, 115, rfl⟩
abbrev main_call6_v15 : Ref sig .tc := ⟨.hbm, 116, rfl⟩
abbrev main_v15 : Ref sig .tc := ⟨.hbm, 117, rfl⟩
abbrev main_call7_v0 : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_cst : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  bcast_S8_S8x1x1_0 : S8.BroadcastsInDim S8x1x1 (![0] : Fin 1 → Fin S8x1x1.rank)
  bcast_S_S8x1 : S_.BroadcastsInDim S8x1 (![] : Fin 0 → Fin S8x1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  reducesTo_S8x1_S8_d1 : S8x1.ReducesTo [1] S8
  h_S_ : 0 < S_.numel
  bcast_S8_S8x1024x8_0 : S8.BroadcastsInDim S8x1024x8 (![0] : Fin 1 → Fin S8x1024x8.rank)
  bcast_S_S8x1024x8 : S_.BroadcastsInDim S8x1024x8 (![] : Fin 0 → Fin S8x1024x8.rank)
  bcast_S8x1x1_S8x1024x8_0_1_2 : S8x1x1.BroadcastsInDim S8x1024x8 (![0, 1, 2] : Fin 3 → Fin S8x1024x8.rank)
  bcast_S8_S8x8x1024_0 : S8.BroadcastsInDim S8x8x1024 (![0] : Fin 1 → Fin S8x8x1024.rank)
  bcast_S_S8x8x1024 : S_.BroadcastsInDim S8x8x1024 (![] : Fin 0 → Fin S8x8x1024.rank)
  bcast_S8x1x1_S8x8x1024_0_1_2 : S8x1x1.BroadcastsInDim S8x8x1024 (![0, 1, 2] : Fin 3 → Fin S8x8x1024.rank)
  concatenates_S8x1024x8_S8x1024x8_S8x1024x16_d2 : Shape.Concatenates [S8x1024x8, S8x1024x8] S8x1024x16 2
  bitsLt_bf16_f32 : FTy.bits .bf16 < FTy.bits .f32
  concatenates_S8x8x1024_S8x8x1024_S8x8x2048_d2 : Shape.Concatenates [S8x8x1024, S8x8x1024] S8x8x2048 2
  concatenates_S8x8x2048_S8x8x2048_S8x16x2048_d1 : Shape.Concatenates [S8x8x2048, S8x8x2048] S8x16x2048 1
  transposes_S3072x1024_S1024x3072_1_0 : S3072x1024.Transposes [1, 0] S1024x3072
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S3072 : S1x3072.ShapeCasts S3072
  broadcasts_S1x3072_S512x3072 : S1x3072.Broadcasts S512x3072
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  slices_S512x2048_o0_0_S512x1024 : S512x2048.Slices ![0, 0] S512x1024
  slices_S512x2048_o0_1024_S512x1024 : S512x2048.Slices ![0, 1024] S512x1024
  slices_S512x3072_o0_0_S512x1024 : S512x3072.Slices ![0, 0] S512x1024
  inb_S1x512x3072_S1x512x1024_0_0_0 : ∀ a, (![0, 0, 0] : Fin 3 → Nat) a + S1x512x1024.size a ≤ S1x512x3072.size a
  shapeCasts_S512x1024_S1x512x1024 : S512x1024.ShapeCasts S1x512x1024
  slices_S512x3072_o0_1024_S512x1024 : S512x3072.Slices ![0, 1024] S512x1024
  inb_S1x512x3072_S1x512x1024_0_0_1024 : ∀ a, (![0, 0, 1024] : Fin 3 → Nat) a + S1x512x1024.size a ≤ S1x512x3072.size a
  slices_S512x3072_o0_2048_S512x1024 : S512x3072.Slices ![0, 2048] S512x1024
  inb_S1x512x3072_S1x512x1024_0_0_2048 : ∀ a, (![0, 0, 2048] : Fin 3 → Nat) a + S1x512x1024.size a ≤ S1x512x3072.size a
  gather_S16_S8x1_S8_n_0_n_n_0_1_1_wf : GatherDims.WF S16 S8x1 S8 [] [0] [] [0] [] 1 ![1]
  gather_S16x1024x8_S8x1_S8x1024x8_12_0_n_n_0_1_110248_wf : GatherDims.WF S16x1024x8 S8x1 S8x1024x8 [1, 2] [0] [] [0] [] 1 ![1, 1024, 8]
  gather_S16x8x1024_S8x1_S8x8x1024_12_0_n_n_0_1_181024_wf : GatherDims.WF S16x8x1024 S8x1 S8x8x1024 [1, 2] [0] [] [0] [] 1 ![1, 8, 1024]
  dot_S512x1024_S1024x3072_S512x3072_1_0_0_1_n_n_wf : DotDims.WF S512x1024 S1024x3072 S512x3072 [1] [0] [0] [1] [] []
  dot_S512x1024_S1024x16_S512x16_1_0_0_1_n_n_wf : DotDims.WF S512x1024 S1024x16 S512x16 [1] [0] [0] [1] [] []
  dot_S512x16_S16x2048_S512x2048_1_0_0_1_n_n_wf : DotDims.WF S512x16 S16x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x16.size a ≤ S8x1024x16.size a
  hwx0_3 : ∀ i : grid0.Coords, EltTy.bits .bf16 = 32 ∨ (Rect.block (s := S8x1024x16) S1x1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x2048.size a ≤ S8x16x2048.size a
  hwx0_4 : ∀ i : grid0.Coords, EltTy.bits .bf16 = 32 ∨ (Rect.block (s := S8x16x2048) S1x16x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x3072.size a ≤ S8x4096x3072.size a
  hwx0_5 : ∀ i : grid0.Coords, EltTy.bits .f32 = 32 ∨ (Rect.block (s := S8x4096x3072) S1x512x3072.size (cc0_transform_5 i) (hinb0_5 i)).WholeWords (EltTy.packing .f32)

variable [Facts₀]

def gather_S16_S8x1_S8_n_0_n_n_0_1_1 : GatherDims S16 S8x1 S8 where
  offsetDims := []
  collapsedSliceDims := [0]
  operandBatchingDims := []
  startIndicesBatchingDims := []
  startIndexMap := [0]
  indexVectorDim := 1
  sliceSizes := ![1]
  wf := gather_S16_S8x1_S8_n_0_n_n_0_1_1_wf
def gather_S16x1024x8_S8x1_S8x1024x8_12_0_n_n_0_1_110248 : GatherDims S16x1024x8 S8x1 S8x1024x8 where
  offsetDims := [1, 2]
  collapsedSliceDims := [0]
  operandBatchingDims := []
  startIndicesBatchingDims := []
  startIndexMap := [0]
  indexVectorDim := 1
  sliceSizes := ![1, 1024, 8]
  wf := gather_S16x1024x8_S8x1_S8x1024x8_12_0_n_n_0_1_110248_wf
def gather_S16x8x1024_S8x1_S8x8x1024_12_0_n_n_0_1_181024 : GatherDims S16x8x1024 S8x1 S8x8x1024 where
  offsetDims := [1, 2]
  collapsedSliceDims := [0]
  operandBatchingDims := []
  startIndicesBatchingDims := []
  startIndexMap := [0]
  indexVectorDim := 1
  sliceSizes := ![1, 8, 1024]
  wf := gather_S16x8x1024_S8x1_S8x8x1024_12_0_n_n_0_1_181024_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x16x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x512x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S3072x1024 : Shape := ⟨2, ![3072, 1024]⟩
abbrev S3072 : Shape := ⟨1, ![3072]⟩
abbrev S16x1024x8 : Shape := ⟨3, ![16, 1024, 8]⟩
abbrev S16x8x1024 : Shape := ⟨3, ![16, 8, 1024]⟩
abbrev S8x1 : Shape := ⟨2, ![8, 1]⟩
abbrev S16 : Shape := ⟨1, ![16]⟩
abbrev S8x4096x3072 : Shape := ⟨3, ![8, 4096, 3072]⟩
abbrev S1x1x3072 : Shape := ⟨3, ![1, 1, 3072]⟩
abbrev S8 : Shape := ⟨1, ![8]⟩
abbrev S_ : Shape := ⟨0, ![]⟩
abbrev S8x1x1 : Shape := ⟨3, ![8, 1, 1]⟩
abbrev S8x1024x8 : Shape := ⟨3, ![8, 1024, 8]⟩
abbrev S8x8x1024 : Shape := ⟨3, ![8, 8, 1024]⟩
abbrev S8x4096x8 : Shape := ⟨3, ![8, 4096, 8]⟩
abbrev S1 : Shape := ⟨1, ![1]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S3072, .f32⟩
  | .hbm, ⟨3, _⟩ => ⟨S16x1024x8, .f32⟩
  | .hbm, ⟨4, _⟩ => ⟨S16x8x1024, .f32⟩
  | .hbm, ⟨5, _⟩ => ⟨S16x1024x8, .f32⟩
  | .hbm, ⟨6, _⟩ => ⟨S16x8x1024, .f32⟩
  | .hbm, ⟨7, _⟩ => ⟨S8x1, .i32⟩
  | .hbm, ⟨8, _⟩ => ⟨S16, .i1⟩
  | .hbm, ⟨9, _⟩ => ⟨S8x4096x3072, .f32⟩
  | .hbm, ⟨10, _⟩ => ⟨S1x1x3072, .f32⟩
  | .hbm, ⟨11, _⟩ => ⟨S8x4096x3072, .f32⟩
  | .hbm, ⟨12, _⟩ => ⟨S8x4096x3072, .f32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S8, .i32⟩
  | .hbm, ⟨21, _⟩ => ⟨S8x1, .i32⟩
  | .hbm, ⟨22, _⟩ => ⟨S8, .i1⟩
  | .hbm, ⟨23, _⟩ => ⟨S8x1x1, .i1⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S8x1, .i32⟩
  | .hbm, ⟨32, _⟩ => ⟨S8x1024x8, .f32⟩
  | .hbm, ⟨33, _⟩ => ⟨S8x1024x8, .i1⟩
  | .hbm, ⟨34, _⟩ => ⟨S8x1024x8, .f32⟩
  | .hbm, ⟨35, _⟩ => ⟨S_, .i32⟩
  | .hbm, ⟨36, _⟩ => ⟨S8, .i32⟩
  | .hbm, ⟨37, _⟩ => ⟨S8, .i1⟩
  | .hbm, ⟨38, _⟩ => ⟨S_, .i32⟩
  | .hbm, ⟨39, _⟩ => ⟨S8, .i32⟩
  | .hbm, ⟨40, _⟩ => ⟨S8, .i32⟩
  | .hbm, ⟨41, _⟩ => ⟨S8, .i32⟩
  | .hbm, ⟨42, _⟩ => ⟨S8x1, .i32⟩
  | .hbm, ⟨43, _⟩ => ⟨S8x8x1024, .f32⟩
  | .hbm, ⟨44, _⟩ => ⟨S8x8x1024, .i1⟩
  | .hbm, ⟨45, _⟩ => ⟨S8x8x1024, .f32⟩
  | .hbm, ⟨46, _⟩ => ⟨S_, .i32⟩
  | .hbm, ⟨47, _⟩ => ⟨S8, .i32⟩
  | .hbm, ⟨48, _⟩ => ⟨S8, .i1⟩
  | .hbm, ⟨49, _⟩ => ⟨S_, .i32⟩
  | .hbm, ⟨50, _⟩ => ⟨S8, .i32⟩
  | .hbm, ⟨51, _⟩ => ⟨S8, .i32⟩
  | .hbm, ⟨52, _⟩ => ⟨S8, .i32⟩
  | .hbm, ⟨53, _⟩ => ⟨S8x1, .i32⟩
  | .hbm, ⟨54, _⟩ => ⟨S8x1024x8, .f32⟩
  | .hbm, ⟨55, _⟩ => ⟨S8x1024x8, .i1⟩
  | .hbm, ⟨56, _⟩ => ⟨S8x1024x8, .f32⟩
  | .hbm, ⟨57, _⟩ => ⟨S_, .i32⟩
  | .hbm, ⟨58, _⟩ => ⟨S8, .i32⟩
  | .hbm, ⟨59, _⟩ => ⟨S8, .i1⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S8, .i32⟩
  | .hbm, ⟨64, _⟩ => ⟨S8x1, .i32⟩
  | .hbm, ⟨65, _⟩ => ⟨S8x8x1024, .f32⟩
  | .hbm, ⟨66, _⟩ => ⟨S8x8x1024, .i1⟩
  | .hbm, ⟨67, _⟩ => ⟨S8x8x1024, .f32⟩
  | .hbm, ⟨68, _⟩ => ⟨S8x4096x8, .f32⟩
  | .hbm, ⟨69, _⟩ => ⟨S8x4096x1024, .f32⟩
  | .hbm, ⟨70, _⟩ => ⟨S8x4096x8, .f32⟩
  | .hbm, ⟨71, _⟩ => ⟨S8x4096x1024, .f32⟩
  | .hbm, ⟨72, _⟩ => ⟨S_, .f32⟩
  | .hbm, ⟨73, _⟩ => ⟨S8x4096x1024, .f32⟩
  | .hbm, ⟨74, _⟩ => ⟨S8x4096x1024, .f32⟩
  | .hbm, ⟨75, _⟩ => ⟨S_, .i32⟩
  | .hbm, ⟨76, _⟩ => ⟨S1, .i32⟩
  | .hbm, ⟨77, _⟩ => ⟨S8x4096x3072, .f32⟩
  | .hbm, ⟨78, _⟩ => ⟨S_, .f32⟩
  | .hbm, ⟨79, _⟩ => ⟨S8x4096x1024, .f32⟩
  | .hbm, ⟨80, _⟩ => ⟨S8x4096x1024, .f32⟩
  | .hbm, ⟨81, _⟩ => ⟨S_, .i32⟩
  | .hbm, ⟨82, _⟩ => ⟨S1, .i32⟩
  | .hbm, ⟨83, _⟩ => ⟨S8x4096x3072, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_v0 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call2_v0 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call3_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x4096x3072_0_1_2 : S1x1x3072.BroadcastsInDim S8x4096x3072 (![0, 1, 2] : Fin 3 → Fin S8x4096x3072.rank)
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  bcast_S8_S8x1x1_0 : S8.BroadcastsInDim S8x1x1 (![0] : Fin 1 → Fin S8x1x1.rank)
  bcast_S8x1x1_S8x1024x8_0_1_2 : S8x1x1.BroadcastsInDim S8x1024x8 (![0, 1, 2] : Fin 3 → Fin S8x1024x8.rank)
  bcast_S8x1x1_S8x8x1024_0_1_2 : S8x1x1.BroadcastsInDim S8x8x1024 (![0, 1, 2] : Fin 3 → Fin S8x8x1024.rank)
  bcast_S_S8x4096x1024 : S_.BroadcastsInDim S8x4096x1024 (![] : Fin 0 → Fin S8x4096x1024.rank)
  bcast_S_S1 : S_.BroadcastsInDim S1 (![] : Fin 0 → Fin S1.rank)
  dot_S8x4096x1024_S3072x1024_S8x4096x3072_2_1_01_0_n_n_wf : DotDims.WF S8x4096x1024 S3072x1024 S8x4096x3072 [2] [1] [0, 1] [0] [] []
  gather_S16_S8x1_S8_n_0_n_n_0_1_1_wf : GatherDims.WF S16 S8x1 S8 [] [0] [] [0] [] 1 ![1]
  gather_S16x1024x8_S8x1_S8x1024x8_12_0_n_n_0_1_110248_wf : GatherDims.WF S16x1024x8 S8x1 S8x1024x8 [1, 2] [0] [] [0] [] 1 ![1, 1024, 8]
  gather_S16x8x1024_S8x1_S8x8x1024_12_0_n_n_0_1_181024_wf : GatherDims.WF S16x8x1024 S8x1 S8x8x1024 [1, 2] [0] [] [0] [] 1 ![1, 8, 1024]
  dot_S8x4096x1024_S8x1024x8_S8x4096x8_2_1_1_2_0_0_wf : DotDims.WF S8x4096x1024 S8x1024x8 S8x4096x8 [2] [1] [1] [2] [0] [0]
  dot_S8x4096x8_S8x8x1024_S8x4096x1024_2_1_1_2_0_0_wf : DotDims.WF S8x4096x8 S8x8x1024 S8x4096x1024 [2] [1] [1] [2] [0] [0]
  scatter_S8x4096x3072_S1_S8x4096x1024_012_n_2_0_wf : ScatterDims.WF S8x4096x3072 S1 S8x4096x1024 [0, 1, 2] [] [2] 0

variable [Facts₀]

def dot_S8x4096x1024_S3072x1024_S8x4096x3072_2_1_01_0_n_n : DotDims S8x4096x1024 S3072x1024 S8x4096x3072 where
  lhsContracting := [2]
  rhsContracting := [1]
  lhsNonContracting := [0, 1]
  rhsNonContracting := [0]
  lhsBatch := []
  rhsBatch := []
  wf := dot_S8x4096x1024_S3072x1024_S8x4096x3072_2_1_01_0_n_n_wf
def gather_S16_S8x1_S8_n_0_n_n_0_1_1 : GatherDims S16 S8x1 S8 where
  offsetDims := []
  collapsedSliceDims := [0]
  operandBatchingDims := []
  startIndicesBatchingDims := []
  startIndexMap := [0]
  indexVectorDim := 1
  sliceSizes := ![1]
  wf := gather_S16_S8x1_S8_n_0_n_n_0_1_1_wf
def gather_S16x1024x8_S8x1_S8x1024x8_12_0_n_n_0_1_110248 : GatherDims S16x1024x8 S8x1 S8x1024x8 where
  offsetDims := [1, 2]
  collapsedSliceDims := [0]
  operandBatchingDims := []
  startIndicesBatchingDims := []
  startIndexMap := [0]
  indexVectorDim := 1
  sliceSizes := ![1, 1024, 8]
  wf := gather_S16x1024x8_S8x1_S8x1024x8_12_0_n_n_0_1_110248_wf
def gather_S16x8x1024_S8x1_S8x8x1024_12_0_n_n_0_1_181024 : GatherDims S16x8x1024 S8x1 S8x8x1024 where
  offsetDims := [1, 2]
  collapsedSliceDims := [0]
  operandBatchingDims := []
  startIndicesBatchingDims := []
  startIndexMap := [0]
  indexVectorDim := 1
  sliceSizes := ![1, 8, 1024]
  wf := gather_S16x8x1024_S8x1_S8x8x1024_12_0_n_n_0_1_181024_wf
def dot_S8x4096x1024_S8x1024x8_S8x4096x8_2_1_1_2_0_0 : DotDims S8x4096x1024 S8x1024x8 S8x4096x8 where
  lhsContracting := [2]
  rhsContracting := [1]
  lhsNonContracting := [1]
  rhsNonContracting := [2]
  lhsBatch := [0]
  rhsBatch := [0]
  wf := dot_S8x4096x1024_S8x1024x8_S8x4096x8_2_1_1_2_0_0_wf
def dot_S8x4096x8_S8x8x1024_S8x4096x1024_2_1_1_2_0_0 : DotDims S8x4096x8 S8x8x1024 S8x4096x1024 where
  lhsContracting := [2]
  rhsContracting := [1]
  lhsNonContracting := [1]
  rhsNonContracting := [2]
  lhsBatch := [0]
  rhsBatch := [0]
  wf := dot_S8x4096x8_S8x8x1024_S8x4096x1024_2_1_1_2_0_0_wf
def scatter_S8x4096x3072_S1_S8x4096x1024_012_n_2_0 : ScatterDims S8x4096x3072 S1 S8x4096x1024 where
  updateWindowDims := [0, 1, 2]
  insertedWindowDims := []
  scatterDimsToOperandDims := [2]
  indexVectorDim := 0
  wf := scatter_S8x4096x3072_S1_S8x4096x1024_012_n_2_0_wf

class Facts : Prop extends Facts₀ where

variable [Facts]
-- ==== Proof.Spec.lean ====
/-
  What the fused projection computes, as ONE function of its arguments, index by index over the extended reals.

  For batch `b`, row `n` and output column `o` the base projection is `∑ₖ x[b,n,k] · w[o,k] + bias[o]`.
  Two rank-8 updates are added to it, each a product through an 8-wide bottleneck,
  `∑ᵣ (∑ₖ x[b,n,k] · A[b,k,r]) · B[b,r,j]`: one on the first 1024 columns, one on the last 1024; the middle
  1024 columns are the base projection alone. The tables `A`, `B` are per-batch (already selected from their
  pools), and the update enters scaled by a constant `c1` which both programs carry as the same word.

  The second half of the file is the one algebraic fact the comparison rests on. A program may fuse the two
  updates: concatenate the two `A` tables along the rank axis (16 columns) and lay the two `B` tables out
  block-diagonally in a 16 × 2048 table whose off-diagonal blocks are zero. The sum over the sixteen ranks then
  splits into the two sums over eight, and in each output half the foreign eight terms are products with zero,
  which vanish on the extended reals whatever the other factor is. So no finiteness is used.
-/
import Idealize.ShloMosaic.PureOps.Ideal
import Idealize.ShloMosaic.Lib.ValueIdx
import Mathlib.Algebra.BigOperators.Fin

noncomputable section

namespace Cert.LoraSpec

open Idealize.ShloMosaic Idealize.ShloMosaic.ValueIdx

/-- The activations `x[b, n, k]`. -/
abbrev SX : Shape := ⟨3, ![8, 4096, 1024]⟩
/-- The projection weight `w[o, k]`. -/
abbrev SW : Shape := ⟨2, ![3072, 1024]⟩
/-- The bias `bias[o]`. -/
abbrev SBias : Shape := ⟨1, ![3072]⟩
/-- A per-batch down-projection table `A[b, k, r]`. -/
abbrev SA : Shape := ⟨3, ![8, 1024, 8]⟩
/-- A per-batch up-projection table `B[b, r, j]`. -/
abbrev SB : Shape := ⟨3, ![8, 8, 1024]⟩
/-- The fused down-projection table: the two `A` tables side by side along the rank axis. -/
abbrev SA2 : Shape := ⟨3, ![8, 1024, 16]⟩
/-- The fused up-projection table: the two `B` tables on the diagonal of a 16 × 2048 table. -/
abbrev SB2 : Shape := ⟨3, ![8, 16, 2048]⟩
/-- The result `out[b, n, o]`. -/
abbrev SO : Shape := ⟨3, ![8, 4096, 3072]⟩

/-- The scale the updates enter with: the word both programs carry (it denotes 1; it is never evaluated). -/
abbrev c1 : EReal := Ideal.ofBits .f32 0x3F800000#32

/-- The table-selecting indices, one per batch, as an 8 × 1 column of 32-bit words. -/
abbrev SIdx : Shape := ⟨2, ![8, 1]⟩

/-- Every selecting index, read signed, lies in the range of a 16-entry axis addressed from either end:
    `-16 ≤ idx[b] < 16`. -/
def InRange (idx : IVec SIdx 32) : Prop :=
  ∀ b : Fin 8, -16 ≤ (idx (ix2 b (0 : Fin 1))).toInt ∧ (idx (ix2 b (0 : Fin 1))).toInt < 16

/-- The base projection at batch `b`, row `n`, column `o`. -/
def base (x : SX.Idx → EReal) (w : SW.Idx → EReal) (bias : SBias.Idx → EReal) (b : Fin 8) (n : Fin 4096) (o : Fin 3072) : EReal :=
  (∑ k : Fin 1024, x (ix3 b n k) * w (ix2 o k)) + bias (ix1 o)

/-- The rank-8 update at batch `b`, row `n`, column `j` of its band. -/
def lora (x : SX.Idx → EReal) (A : SA.Idx → EReal) (B : SB.Idx → EReal) (b : Fin 8) (n : Fin 4096) (j : Fin 1024) : EReal :=
  ∑ r : Fin 8, (∑ k : Fin 1024, x (ix3 b n k) * A (ix3 b k r)) * B (ix3 b r j)

/-- Column `j` of the first band, as a column of the result. -/
abbrev col0 (j : Fin 1024) : Fin 3072 := ⟨j.val, by have := j.isLt; omega⟩
/-- Column `j` of the middle band. -/
abbrev col1 (j : Fin 1024) : Fin 3072 := ⟨1024 + j.val, by have := j.isLt; omega⟩
/-- Column `j` of the last band. -/
abbrev col2 (j : Fin 1024) : Fin 3072 := ⟨2048 + j.val, by have := j.isLt; omega⟩

/-- The whole result: the base projection, plus `c1` times the first update on columns below 1024 and `c1` times
    the second update on columns from 2048 on. -/
def out (c1 : EReal) (x : SX.Idx → EReal) (w : SW.Idx → EReal) (bias : SBias.Idx → EReal)
    (Aq : SA.Idx → EReal) (Bq : SB.Idx → EReal) (Av : SA.Idx → EReal) (Bv : SB.Idx → EReal) : SO.Idx → EReal := fun i =>
  have h2 : (i 2).val < 3072 := (i 2).isLt
  if h0 : (i 2).val < 1024 then base x w bias (i 0) (i 1) (i 2) + c1 * lora x Aq Bq (i 0) (i 1) ⟨(i 2).val, h0⟩
  else if (i 2).val < 2048 then base x w bias (i 0) (i 1) (i 2)
  else base x w bias (i 0) (i 1) (i 2) + c1 * lora x Av Bv (i 0) (i 1) ⟨(i 2).val - 2048, by omega⟩

section Bands

variable (c1 : EReal) (x : SX.Idx → EReal) (w : SW.Idx → EReal) (bias : SBias.Idx → EReal)
  (Aq : SA.Idx → EReal) (Bq : SB.Idx → EReal) (Av : SA.Idx → EReal) (Bv : SB.Idx → EReal)

/-- On the first band the result is the base projection plus the first update. -/
theorem out_band0 (b : Fin 8) (n : Fin 4096) (j : Fin 1024) :
    out c1 x w bias Aq Bq Av Bv (ix3 b n (col0 j)) = base x w bias b n (col0 j) + c1 * lora x Aq Bq b n j := by
  have hj := j.isLt
  have h0 : ((ix3 b n (col0 j) : SO.Idx) 2).val < 1024 := hj
  unfold out
  rw [dif_pos h0]

/-- On the middle band the result is the base projection alone. -/
theorem out_band1 (b : Fin 8) (n : Fin 4096) (j : Fin 1024) :
    out c1 x w bias Aq Bq Av Bv (ix3 b n (col1 j)) = base x w bias b n (col1 j) := by
  have hj := j.isLt
  have h0 : ¬ ((ix3 b n (col1 j) : SO.Idx) 2).val < 1024 := by show ¬ (1024 + j.val < 1024); omega
  have h1 : ((ix3 b n (col1 j) : SO.Idx) 2).val < 2048 := by show 1024 + j.val < 2048; omega
  unfold out
  rw [dif_neg h0, if_pos h1]

/-- On the last band the result is the base projection plus the second update. -/
theorem out_band2 (b : Fin 8) (n : Fin 4096) (j : Fin 1024) :
    out c1 x w bias Aq Bq Av Bv (ix3 b n (col2 j)) = base x w bias b n (col2 j) + c1 * lora x Av Bv b n j := by
  have hj := j.isLt
  have h0 : ¬ ((ix3 b n (col2 j) : SO.Idx) 2).val < 1024 := by show ¬ (2048 + j.val < 1024); omega
  have h1 : ¬ ((ix3 b n (col2 j) : SO.Idx) 2).val < 2048 := by show ¬ (2048 + j.val < 2048); omega
  unfold out
  rw [dif_neg h0, if_neg h1]
  have e : ∀ h : ((ix3 b n (col2 j) : SO.Idx) 2).val - 2048 < 1024,
      (⟨((ix3 b n (col2 j) : SO.Idx) 2).val - 2048, h⟩ : Fin 1024) = j :=
    fun _ => Fin.ext (by show 2048 + j.val - 2048 = j.val; omega)
  show base x w bias b n (col2 j) + c1 * lora x Av Bv b n ⟨((ix3 b n (col2 j) : SO.Idx) 2).val - 2048, _⟩ = _
  rw [e]

end Bands

/-! ## The fused sum over sixteen ranks -/

/-- Rank `r` of the first table, as a rank of the fused table. -/
abbrev lo (r : Fin 8) : Fin 16 := ⟨r.val, by have := r.isLt; omega⟩
/-- Rank `r` of the second table, as a rank of the fused table. -/
abbrev hi (r : Fin 8) : Fin 16 := ⟨8 + r.val, by have := r.isLt; omega⟩
/-- Column `j` of the first half of the fused up-projection's 2048 columns. -/
abbrev left (j : Fin 1024) : Fin 2048 := ⟨j.val, by have := j.isLt; omega⟩
/-- Column `j` of its second half. -/
abbrev right (j : Fin 1024) : Fin 2048 := ⟨1024 + j.val, by have := j.isLt; omega⟩

/-- A sum over sixteen terms whose first eight are `g` and whose last eight vanish is the sum of `g`. -/
theorem sum16_lo {M : Type*} [AddCommMonoid M] (f : Fin 16 → M) (g : Fin 8 → M)
    (h0 : ∀ r : Fin 8, f (lo r) = g r) (h1 : ∀ r : Fin 8, f (hi r) = 0) : ∑ r' : Fin 16, f r' = ∑ r : Fin 8, g r := by
  have e : ∑ r' : Fin (8 + 8), f r' = ∑ r : Fin 8, f (Fin.castAdd 8 r) + ∑ r : Fin 8, f (Fin.natAdd 8 r) := Fin.sum_univ_add (fun i : Fin (8 + 8) => f i)
  have a0 : ∀ r : Fin 8, f (Fin.castAdd 8 r) = g r := fun r => h0 r
  have a1 : ∀ r : Fin 8, f (Fin.natAdd 8 r) = 0 := fun r => h1 r
  calc ∑ r' : Fin 16, f r' = ∑ r : Fin 8, f (Fin.castAdd 8 r) + ∑ r : Fin 8, f (Fin.natAdd 8 r) := e
    _ = ∑ r : Fin 8, g r + ∑ _r : Fin 8, (0 : M) := by simp only [a0, a1]
    _ = ∑ r : Fin 8, g r := by rw [Finset.sum_const_zero, add_zero]

/-- The same with the halves exchanged: the first eight vanish, the last eight are `g`. -/
theorem sum16_hi {M : Type*} [AddCommMonoid M] (f : Fin 16 → M) (g : Fin 8 → M)
    (h0 : ∀ r : Fin 8, f (lo r) = 0) (h1 : ∀ r : Fin 8, f (hi r) = g r) : ∑ r' : Fin 16, f r' = ∑ r : Fin 8, g r := by
  have e : ∑ r' : Fin (8 + 8), f r' = ∑ r : Fin 8, f (Fin.castAdd 8 r) + ∑ r : Fin 8, f (Fin.natAdd 8 r) := Fin.sum_univ_add (fun i : Fin (8 + 8) => f i)
  have a0 : ∀ r : Fin 8, f (Fin.castAdd 8 r) = 0 := fun r => h0 r
  have a1 : ∀ r : Fin 8, f (Fin.natAdd 8 r) = g r := fun r => h1 r
  calc ∑ r' : Fin 16, f r' = ∑ r : Fin 8, f (Fin.castAdd 8 r) + ∑ r : Fin 8, f (Fin.natAdd 8 r) := e
    _ = ∑ _r : Fin 8, (0 : M) + ∑ r : Fin 8, g r := by simp only [a0, a1]
    _ = ∑ r : Fin 8, g r := by rw [Finset.sum_const_zero, zero_add]

/-- The fused tables: `A2` holds `Aq` in its first eight ranks and `Av` in its last eight; `B2` holds `Bq` and
    `Bv` on its diagonal blocks and zero off them. -/
structure Fused (Aq Av : SA.Idx → EReal) (Bq Bv : SB.Idx → EReal) (A2 : SA2.Idx → EReal) (B2 : SB2.Idx → EReal) : Prop where
  a_lo : ∀ (b : Fin 8) (k : Fin 1024) (r : Fin 8), A2 (ix3 b k (lo r)) = Aq (ix3 b k r)
  a_hi : ∀ (b : Fin 8) (k : Fin 1024) (r : Fin 8), A2 (ix3 b k (hi r)) = Av (ix3 b k r)
  b_lo_left : ∀ (b : Fin 8) (r : Fin 8) (j : Fin 1024), B2 (ix3 b (lo r) (left j)) = Bq (ix3 b r j)
  b_lo_right : ∀ (b : Fin 8) (r : Fin 8) (j : Fin 1024), B2 (ix3 b (lo r) (right j)) = 0
  b_hi_left : ∀ (b : Fin 8) (r : Fin 8) (j : Fin 1024), B2 (ix3 b (hi r) (left j)) = 0
  b_hi_right : ∀ (b : Fin 8) (r : Fin 8) (j : Fin 1024), B2 (ix3 b (hi r) (right j)) = Bv (ix3 b r j)

/-- The fused update, at batch `b`, row `n` and column `j'` of the 2048. -/
def fused (x : SX.Idx → EReal) (A2 : SA2.Idx → EReal) (B2 : SB2.Idx → EReal) (b : Fin 8) (n : Fin 4096) (j' : Fin 2048) : EReal :=
  ∑ r' : Fin 16, (∑ k : Fin 1024, x (ix3 b n k) * A2 (ix3 b k r')) * B2 (ix3 b r' j')

variable {Aq Av : SA.Idx → EReal} {Bq Bv : SB.Idx → EReal} {A2 : SA2.Idx → EReal} {B2 : SB2.Idx → EReal}

/-- In its first 1024 columns the fused update is the first rank-8 update: the last eight ranks meet a zero of `B2`. -/
theorem fused_left (h : Fused Aq Av Bq Bv A2 B2) (x : SX.Idx → EReal) (b : Fin 8) (n : Fin 4096) (j : Fin 1024) :
    fused x A2 B2 b n (left j) = lora x Aq Bq b n j := by
  unfold fused lora
  refine sum16_lo _ _ (fun r => ?_) (fun r => ?_)
  · rw [h.b_lo_left]; simp only [h.a_lo]
  · rw [h.b_hi_left, mul_zero]

/-- In its last 1024 columns it is the second: the first eight ranks meet a zero. -/
theorem fused_right (h : Fused Aq Av Bq Bv A2 B2) (x : SX.Idx → EReal) (b : Fin 8) (n : Fin 4096) (j : Fin 1024) :
    fused x A2 B2 b n (right j) = lora x Av Bv b n j := by
  unfold fused lora
  refine sum16_hi _ _ (fun r => ?_) (fun r => ?_)
  · rw [h.b_lo_right, mul_zero]
  · rw [h.b_hi_right]; simp only [h.a_hi]

end Cert.LoraSpec

end
-- ==== Proof.Payload.lean ====
/-
  What the kernel's body stores, read at an index over the extended reals.

  From its row block `x` (512 rows of one batch), the transposed weight `wT`, the bias row and one batch of the two fused
  tables `A2`, `B2`, the body forms the projection `P[r, o] = ∑ₖ x[r, k] · wT[k, o] + bias[o]` and the fused update
  `U[r, j'] = ∑ᵣ' (∑ₖ x[r, k] · A2[k, r']) · B2[r', j']` (a matrix product through sixteen ranks; the change of float
  format between the two products is the identity here). It stores three bands of 1024 columns: `P + c · U` on the
  first (with the first half of `U`), `P` alone on the middle, `P + c · U` on the last (with the second half of `U`).
  Each matrix product into a zero accumulator is the plain sum over the contracted axis.
-/
import proofs.«425949_j3805341024603_2_alg».proof.Proof.Gen.KernelIdeal.Skeleton
import proofs.«425949_j3805341024603_2_alg».proof.Proof.Gen.KernelIdeal
import proofs.«425949_j3805341024603_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.LoraSpec

/-! ## The three products, read at an index

Each product contracts the left operand's columns with the right operand's rows into a zero accumulator; at the
ideal values it is the plain sum of products. The operand indices are read axis by axis. -/

/-! ### The projection `[512,1024] × [1024,3072]` -/

/-- The left operand's row coordinate is the result's row. -/
theorem lhsW_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- The left operand's column coordinate is the contraction position. -/
theorem lhsW_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- The right operand's row coordinate is the contraction position. -/
theorem rhsW_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- The right operand's column coordinate is the result's column. -/
theorem rhsW_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
/-- The product into a zero accumulator, read at row `r` and column `o`: `∑ₖ a[r,k] · b[k,o]`. -/
theorem matmulW_apply {φ₁ φ₂ : FTy} (a : FVec Ideal S512x1024 φ₁) (b : FVec Ideal S1024x3072 φ₂) (r : Fin 512) (o : Fin 3072) :
    matmul dot_S512x1024_S1024x3072_S512x3072_1_0_0_1_n_n none a b (constant (F := Ideal) S512x3072 .f32 0x00000000#32) (ix2 r o)
      = ∑ k : Fin 1024, a (ix2 r k) * b (ix2 k o) := by
  show FloatOps.matmul dot_S512x1024_S1024x3072_S512x3072_1_0_0_1_n_n none a b (constant (F := Ideal) S512x3072 .f32 0x00000000#32) (ix2 r o) = _
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r o) ((ValueIdx.contrEquiv1 dot_S512x1024_S1024x3072_S512x3072_1_0_0_1_n_n 1024 rfl rfl).symm k) = ix2 r k := funext fun a => Fin.ext (by
    match a with
    | ⟨0, _⟩ => exact lhsW_0 _ _
    | ⟨1, _⟩ => exact (lhsW_1 _ _).trans hk)
  have er : dot_S512x1024_S1024x3072_S512x3072_1_0_0_1_n_n.rhsIdx (ix2 r o) ((ValueIdx.contrEquiv1 dot_S512x1024_S1024x3072_S512x3072_1_0_0_1_n_n 1024 rfl rfl).symm k) = ix2 k o := funext fun a => Fin.ext (by
    match a with
    | ⟨0, _⟩ => exact (rhsW_0 _ _).trans hk
    | ⟨1, _⟩ => exact rhsW_1 _ _)
  rw [el, er]

/-! ### The down-projection `[512,1024] × [1024,16]` -/

/-- The left operand's row coordinate is the result's row. -/
theorem lhsA_0 (i : S512x16.Idx) (q : dot_S512x1024_S1024x16_S512x16_1_0_0_1_n_n.contr.Idx) :
    (dot_S512x1024_S1024x16_S512x16_1_0_0_1_n_n.lhsIdx i q 0).val = (i 0).val := by
  unfold DotDims.lhsIdx
  rw [dif_neg (show ¬(0 : Fin S512x1024.rank) ∈ dot_S512x1024_S1024x16_S512x16_1_0_0_1_n_n.lhsBatch by decide), dif_pos (show (0 : Fin S512x1024.rank) ∈ dot_S512x1024_S1024x16_S512x16_1_0_0_1_n_n.lhsNonContracting by decide)]
  rfl
/-- The left operand's column coordinate is the contraction position. -/
theorem lhsA_1 (i : S512x16.Idx) (q : dot_S512x1024_S1024x16_S512x16_1_0_0_1_n_n.contr.Idx) :
    (dot_S512x1024_S1024x16_S512x16_1_0_0_1_n_n.lhsIdx i q 1).val = (q ⟨0, by decide⟩).val :=
  dot_S512x1024_S1024x16_S512x16_1_0_0_1_n_n.lhsIdx_val_of_single rfl i q
/-- The right operand's row coordinate is the contraction position. -/
theorem rhsA_0 (i : S512x16.Idx) (q : dot_S512x1024_S1024x16_S512x16_1_0_0_1_n_n.contr.Idx) :
    (dot_S512x1024_S1024x16_S512x16_1_0_0_1_n_n.rhsIdx i q 0).val = (q ⟨0, by decide⟩).val :=
  dot_S512x1024_S1024x16_S512x16_1_0_0_1_n_n.rhsIdx_val_of_single rfl i q
/-- The right operand's column coordinate is the result's column. -/
theorem rhsA_1 (i : S512x16.Idx) (q : dot_S512x1024_S1024x16_S512x16_1_0_0_1_n_n.contr.Idx) :
    (dot_S512x1024_S1024x16_S512x16_1_0_0_1_n_n.rhsIdx i q 1).val = (i 1).val := by
  unfold DotDims.rhsIdx
  rw [dif_neg (show ¬(1 : Fin S1024x16.rank) ∈ dot_S512x1024_S1024x16_S512x16_1_0_0_1_n_n.rhsBatch by decide), dif_pos (show (1 : Fin S1024x16.rank) ∈ dot_S512x1024_S1024x16_S512x16_1_0_0_1_n_n.rhsNonContracting by decide)]
  rfl
/-- The product into a zero accumulator, read at row `r` and column `o`: `∑ₖ a[r,k] · b[k,o]`. -/
theorem matmulA_apply {φ₁ φ₂ : FTy} (a : FVec Ideal S512x1024 φ₁) (b : FVec Ideal S1024x16 φ₂) (r : Fin 512) (o : Fin 16) :
    matmul dot_S512x1024_S1024x16_S512x16_1_0_0_1_n_n none a b (constant (F := Ideal) S512x16 .f32 0x00000000#32) (ix2 r o)
      = ∑ k : Fin 1024, a (ix2 r k) * b (ix2 k o) := by
  show FloatOps.matmul dot_S512x1024_S1024x16_S512x16_1_0_0_1_n_n none a b (constant (F := Ideal) S512x16 .f32 0x00000000#32) (ix2 r o) = _
  rw [Ideal.matmul_constant_zero_apply, ← Equiv.sum_comp (ValueIdx.contrEquiv1 dot_S512x1024_S1024x16_S512x16_1_0_0_1_n_n 1024 rfl rfl).symm]
  refine Finset.sum_congr rfl fun k _ => ?_
  have hk := ValueIdx.contrEquiv1_symm_val dot_S512x1024_S1024x16_S512x16_1_0_0_1_n_n 1024 rfl rfl k
  have el : dot_S512x1024_S1024x16_S512x16_1_0_0_1_n_n.lhsIdx (ix2 r o) ((ValueIdx.contrEquiv1 dot_S512x1024_S1024x16_S512x16_1_0_0_1_n_n 1024 rfl rfl).symm k) = ix2 r k := funext fun a => Fin.ext (by
    match a with
    | ⟨0, _⟩ => exact lhsA_0 _ _
    | ⟨1, _⟩ => exact (lhsA_1 _ _).trans hk)
  have er : dot_S512x1024_S1024x16_S512x16_1_0_0_1_n_n.rhsIdx (ix2 r o) ((ValueIdx.contrEquiv1 dot_S512x1024_S1024x16_S512x16_1_0_0_1_n_n 1024 rfl rfl).symm k) = ix2 k o := funext fun a => Fin.ext (by
    match a with
    | ⟨0, _⟩ => exact (rhsA_0 _ _).trans hk
    | ⟨1, _⟩ => exact rhsA_1 _ _)
  rw [el, er]

/-! ### The up-projection `[512,16] × [16,2048]` -/

/-- The left operand's row coordinate is the result's row. -/
theorem lhsB_0 (i : S512x2048.Idx) (q : dot_S512x16_S16x2048_S512x2048_1_0_0_1_n_n.contr.Idx) :
    (dot_S512x16_S16x2048_S512x2048_1_0_0_1_n_n.lhsIdx i q 0).val = (i 0).val := by
  unfold DotDims.lhsIdx
  rw [dif_neg (show ¬(0 : Fin S512x16.rank) ∈ dot_S512x16_S16x2048_S512x2048_1_0_0_1_n_n.lhsBatch by decide), dif_pos (show (0 : Fin S512x16.rank) ∈ dot_S512x16_S16x2048_S512x2048_1_0_0_1_n_n.lhsNonContracting by decide)]
  rfl
/-- The left operand's column coordinate is the contraction position. -/
theorem lhsB_1 (i : S512x2048.Idx) (q : dot_S512x16_S16x2048_S512x2048_1_0_0_1_n_n.contr.Idx) :
    (dot_S512x16_S16x2048_S512x2048_1_0_0_1_n_n.lhsIdx i q 1).val = (q ⟨0, by decide⟩).val :=
  dot_S512x16_S16x2048_S512x2048_1_0_0_1_n_n.lhsIdx_val_of_single rfl i q
/-- The right operand's row coordinate is the contraction position. -/
theorem rhsB_0 (i : S512x2048.Idx) (q : dot_S512x16_S16x2048_S512x2048_1_0_0_1_n_n.contr.Idx) :
    (dot_S512x16_S16x2048_S512x2048_1_0_0_1_n_n.rhsIdx i q 0).val = (q ⟨0, by decide⟩).val :=
  dot_S512x16_S16x2048_S512x2048_1_0_0_1_n_n.rhsIdx_val_of_single rfl i q
/-- The right operand's column coordinate is the result's column. -/
theorem rhsB_1 (i : S512x2048.Idx) (q : dot_S512x16_S16x2048_S512x2048_1_0_0_1_n_n.contr.Idx) :
    (dot_S512x16_S16x2048_S512x2048_1_0_0_1_n_n.rhsIdx i q 1).val = (i 1).val := by
  unfold DotDims.rhsIdx
  rw [dif_neg (show ¬(1 : Fin S16x2048.rank) ∈ dot_S512x16_S16x2048_S512x2048_1_0_0_1_n_n.rhsBatch by decide), dif_pos (show (1 : Fin S16x2048.rank) ∈ dot_S512x16_S16x2048_S512x2048_1_0_0_1_n_n.rhsNonContracting by decide)]
  rfl
/-- The product into a zero accumulator, read at row `r` and column `o`: `∑ₖ a[r,k] · b[k,o]`. -/
theorem matmulB_apply {φ₁ φ₂ : FTy} (a : FVec Ideal S512x16 φ₁) (b : FVec Ideal S16x2048 φ₂) (r : Fin 512) (o : Fin 2048) :
    matmul dot_S512x16_S16x2048_S512x2048_1_0_0_1_n_n none a b (constant (F := Ideal) S512x2048 .f32 0x00000000#32) (ix2 r o)
      = ∑ k : Fin 16, a (ix2 r k) * b (ix2 k o) := by
  show FloatOps.matmul dot_S512x16_S16x2048_S512x2048_1_0_0_1_n_n none a b (constant (F := Ideal) S512x2048 .f32 0x00000000#32) (ix2 r o) = _
  rw [Ideal.matmul_constant_zero_apply, ← Equiv.sum_comp (ValueIdx.contrEquiv1 dot_S512x16_S16x2048_S512x2048_1_0_0_1_n_n 16 rfl rfl).symm]
  refine Finset.sum_congr rfl fun k _ => ?_
  have hk := ValueIdx.contrEquiv1_symm_val dot_S512x16_S16x2048_S512x2048_1_0_0_1_n_n 16 rfl rfl k
  have el : dot_S512x16_S16x2048_S512x2048_1_0_0_1_n_n.lhsIdx (ix2 r o) ((ValueIdx.contrEquiv1 dot_S512x16_S16x2048_S512x2048_1_0_0_1_n_n 16 rfl rfl).symm k) = ix2 r k := funext fun a => Fin.ext (by
    match a with
    | ⟨0, _⟩ => exact lhsB_0 _ _
    | ⟨1, _⟩ => exact (lhsB_1 _ _).trans hk)
  have er : dot_S512x16_S16x2048_S512x2048_1_0_0_1_n_n.rhsIdx (ix2 r o) ((ValueIdx.contrEquiv1 dot_S512x16_S16x2048_S512x2048_1_0_0_1_n_n 16 rfl rfl).symm k) = ix2 k o := funext fun a => Fin.ext (by
    match a with
    | ⟨0, _⟩ => exact (rhsB_0 _ _).trans hk
    | ⟨1, _⟩ => exact rhsB_1 _ _)
  rw [el, er]

/-! ## The layout operations of the body, read at an index -/

/-- The row block cast to a matrix reads its leading coordinate at zero; the change of float format is the identity at
    the ideal values. -/
theorem pay2_apply (x0 : Vec Ideal S1x512x1024 .f32) (r : Fin 512) (k : Fin 1024) :
    k0_pay2 (F := Ideal) x0 (ix2 r k) = x0 (ix3 (0 : Fin 1) r k) := by
  unfold k0_pay2
  exact shapeCast_1ab_ab_apply x0 shapeCasts_S1x512x1024_S512x1024 r k

/-- The bias row, cast to a vector and back and broadcast over the rows, reads the bias at the column. -/
theorem bias_apply (x2 : FVec Ideal S1x3072 .f32) (h₁ : S1x3072.ShapeCasts S3072) (h₂ : S3072.ShapeCasts S1x3072)
    (h₃ : S1x3072.Broadcasts S512x3072) (r : Fin 512) (o : Fin 3072) :
    broadcastTo S512x3072 (shapeCast S1x3072 (shapeCast S3072 x2 h₁) h₂) h₃ (ix2 r o) = x2 (ix2 (0 : Fin 1) o) := by
  refine (broadcastTo_1b_ab_apply _ h₃ r o).trans ?_
  exact congrFun (shapeCast_shapeCast x2 h₁ h₂) _

/-! ## The stored values -/

/-- The body's projection of its row block: row `r`, column `o` is `∑ₖ x[r,k] · wT[k,o] + bias[o]`. -/
theorem pay3_apply (x0 : Vec Ideal S1x512x1024 .f32) (x1 : Vec Ideal S1024x3072 .bf16) (x2 : Vec Ideal S1x3072 .f32)
    (r : Fin 512) (o : Fin 3072) :
    k0_pay3 (F := Ideal) x0 x1 x2 (ix2 r o)
      = (∑ k : Fin 1024, x0 (ix3 (0 : Fin 1) r k) * x1 (ix2 k o)) + x2 (ix2 (0 : Fin 1) o) := by
  unfold k0_pay3
  refine (addf_apply _ _ _).trans ?_
  rw [matmulW_apply, shapeCast_self, bias_apply]
  refine congrArg (· + _) (Finset.sum_congr rfl fun k _ => ?_)
  rw [pay2_apply]

/-- The body's fused update of its row block: row `r`, column `j'` of the 2048 is the sum over the sixteen ranks of
    the down-projection `∑ₖ x[r,k] · A2[k,r']` times `B2[r',j']`. -/
theorem pay4_apply (x0 : Vec Ideal S1x512x1024 .f32) (x3 : Vec Ideal S1x1024x16 .bf16) (x4 : Vec Ideal S1x16x2048 .bf16)
    (r : Fin 512) (j' : Fin 2048) :
    k0_pay4 (F := Ideal) x0 x3 x4 (ix2 r j')
      = ∑ r' : Fin 16, (∑ k : Fin 1024, x0 (ix3 (0 : Fin 1) r k) * x3 (ix3 (0 : Fin 1) k r')) * x4 (ix3 (0 : Fin 1) r' j') := by
  unfold k0_pay4
  refine (matmulB_apply _ _ r j').trans ?_
  refine Finset.sum_congr rfl fun r' _ => ?_
  rw [truncf_apply, matmulA_apply, shapeCast_1ab_ab_apply]
  refine congrArg (· * _) (Finset.sum_congr rfl fun k _ => ?_)
  rw [pay2_apply, shapeCast_1ab_ab_apply]

/-- The first band's store: projection plus `c1` times the fused update's first half. -/
theorem pay6_apply (x0 : Vec Ideal S1x512x1024 .f32) (x1 : Vec Ideal S1024x3072 .bf16) (x2 : Vec Ideal S1x3072 .f32)
    (x3 : Vec Ideal S1x1024x16 .bf16) (x4 : Vec Ideal S1x16x2048 .bf16) (r : Fin 512) (j : Fin 1024) :
    k0_pay6 (F := Ideal) x0 x1 x2 x3 x4 (ix3 (0 : Fin 1) r j)
      = k0_pay3 (F := Ideal) x0 x1 x2 (ix2 r (col0 j)) + c1 * k0_pay4 (F := Ideal) x0 x3 x4 (ix2 r (left j)) := by
  unfold k0_pay6
  refine (shapeCast_ab_1ab_apply _ shapeCasts_S512x1024_S1x512x1024 0 r j).trans ?_
  rw [addf_apply, mulf_apply, broadcast_apply,
    slice2_axis1_apply 0 (k0_pay3 (F := Ideal) x0 x1 x2) slices_S512x3072_o0_0_S512x1024 r j (col0 j) (Nat.zero_add _).symm,
    slice2_axis1_apply 0 (k0_pay4 (F := Ideal) x0 x3 x4) slices_S512x2048_o0_0_S512x1024 r j (left j) (Nat.zero_add _).symm]
  rfl

/-- The middle band's store: the projection alone. -/
theorem pay7_apply (x0 : Vec Ideal S1x512x1024 .f32) (x1 : Vec Ideal S1024x3072 .bf16) (x2 : Vec Ideal S1x3072 .f32)
    (r : Fin 512) (j : Fin 1024) :
    k0_pay7 (F := Ideal) x0 x1 x2 (ix3 (0 : Fin 1) r j) = k0_pay3 (F := Ideal) x0 x1 x2 (ix2 r (col1 j)) := by
  unfold k0_pay7
  refine (shapeCast_ab_1ab_apply _ shapeCasts_S512x1024_S1x512x1024 0 r j).trans ?_
  exact slice2_axis1_apply 1024 (k0_pay3 (F := Ideal) x0 x1 x2) slices_S512x3072_o0_1024_S512x1024 r j (col1 j) rfl

/-- The last band's store: projection plus `c1` times the fused update's second half. -/
theorem pay1_apply (x0 : Vec Ideal S1x512x1024 .f32) (x1 : Vec Ideal S1024x3072 .bf16) (x2 : Vec Ideal S1x3072 .f32)
    (x3 : Vec Ideal S1x1024x16 .bf16) (x4 : Vec Ideal S1x16x2048 .bf16) (r : Fin 512) (j : Fin 1024) :
    k0_pay1 (F := Ideal) (k0_pay5 (F := Ideal) x0 x3 x4) (k0_pay8 (F := Ideal) x0 x1 x2) (Scalar.ofBits .f32 0x3F800000#32) (ix3 (0 : Fin 1) r j)
      = k0_pay3 (F := Ideal) x0 x1 x2 (ix2 r (col2 j)) + c1 * k0_pay4 (F := Ideal) x0 x3 x4 (ix2 r (right j)) := by
  unfold k0_pay1 k0_pay5 k0_pay8
  refine (shapeCast_ab_1ab_apply _ shapeCasts_S512x1024_S1x512x1024 0 r j).trans ?_
  rw [addf_apply, mulf_apply, broadcast_apply,
    slice2_axis1_apply 2048 (k0_pay3 (F := Ideal) x0 x1 x2) slices_S512x3072_o0_2048_S512x1024 r j (col2 j) rfl,
    slice2_axis1_apply 1024 (k0_pay4 (F := Ideal) x0 x3 x4) slices_S512x2048_o0_1024_S512x1024 r j (right j) rfl]
  rfl

end Cert.KernelIdeal.Pay

end
-- ==== Proof.HostSimple.lean ====
/-
  Two arrays prepared before the kernel's region, read at an index: the weight transposed (entry `(k, o)` is the
  argument's `(o, k)`; the change of float format is the identity on the extended reals) and the bias laid out as one
  row (entry `(0, o)` is the argument's entry `o`).
-/
import proofs.«425949_j3805341024603_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.ValueIdx Idealize.SL.Sem

variable (m : (ℓ : Loc nD τ sig) → Buf (Elt Ideal) ℓ)

/-- The weight as the region finds it, as one array: the argument, its float format changed, then transposed. -/
theorem V_wT_eq (c : Dev nD) :
    @Eq (S1024x3072.Idx → EReal) (V m c main_v26)
      (transpose S1024x3072 [1, 0]
        (truncf (F := Ideal) (s := S3072x1024) (φ := .f32) FTy.bf16 (m (c.tc.loc main_arg1)) bitsLt_bf16_f32)
        transposes_S3072x1024_S1024x3072_1_0) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results

/-- The bias as the region finds it, as one array: the argument's 3072 entries recast as a 1 × 3072 array. -/
theorem V_bias_eq (c : Dev nD) :
    @Eq (S1x3072.Idx → EReal) (V m c main_v27)
      (shapeCast (s := S3072) (α := EReal) S1x3072 (m (c.tc.loc main_arg2)) shapeCasts_S3072_S1x3072) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results
  rfl

/-- The weight as the region finds it is the argument transposed (the change of float format is the identity):
    entry `(k, o)` is the argument's `(o, k)`. -/
theorem V_wT (c : Dev nD) (k : Fin 1024) (o : Fin 3072) :
    (V m c main_v26 : S1024x3072.Idx → EReal) (ix2 k o) = (m (c.tc.loc main_arg1) : S3072x1024.Idx → EReal) (ix2 o k) := by
  rw [V_wT_eq m c]
  exact (transpose_ix2_apply _ transposes_S3072x1024_S1024x3072_1_0 k o).trans (truncf_apply _ bitsLt_bf16_f32 _)

/-- The bias as the region finds it is the argument laid out as one row. -/
theorem V_bias (c : Dev nD) (o : Fin 3072) :
    (V m c main_v27 : S1x3072.Idx → EReal) (ix2 (0 : Fin 1) o) = (m (c.tc.loc main_arg2) : S3072.Idx → EReal) (ix1 o) := by
  rw [V_bias_eq m c]
  exact shapeCast_a_1a_apply _ shapeCasts_S3072_S1x3072 (0 : Fin 1) o

end Cert.KernelIdeal.HostSide

end
-- ==== Proof.Take.lean ====
/-
  The two programs select a per-batch table from a pool of sixteen by an index, differently outside the index's
  range. Both first wrap a negative index: `w = idx + 16` if `idx < 0`, else `w = idx`. The reference then takes the
  pool's row `w` (clamped to the pool by the operation itself). The kernel's host code takes the same row but keeps it
  only where `0 ≤ w ≤ 15`, filling a constant elsewhere. For `-16 ≤ idx < 16` the wrapped index is always in
  `[0, 15]`, so the fill is never chosen and the two selections are the same array. (Both programs then pass the table
  through a choice between it and itself, which is the table.)
-/
import proofs.«425949_j3805341024603_2_alg».proof.Proof.Gen.KernelIdeal.Frame
import proofs.«425949_j3805341024603_2_alg».proof.Proof.Gen.ReferenceIdeal.Read
import proofs.«425949_j3805341024603_2_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll

noncomputable section

namespace Cert.KernelIdeal.Take

open Cert.KernelIdeal Cert.KernelIdeal.Gen Idealize.ShloMosaic Idealize.ShloMosaic.ValueIdx Idealize.SL.Sem

variable (m : (ℓ : Loc nD τ sig) → Buf (Elt Ideal) ℓ)

open Cert.LoraSpec (InRange)

/-- A select whose two branches are one array is that array, whatever the condition. -/
theorem select_self {s : Shape} {α : Type} (c : IVec s 1) (g : s.Idx → α) : select c g g = g := by
  funext i
  rw [select_apply]
  by_cases h : c i = 1#1
  · rw [h, select_one]
  · rw [eq_zero_of_ne_one h, select_zero]

/-- The wrapped selecting indices as an 8 × 1 column: the column read as eight words, sixteen added to a
    negative word, laid out as a column again. -/
def wcol (hc : S8x1.ShapeCasts S8) (h0 : S_.BroadcastsInDim S8 ![]) (h1 : S8.BroadcastsInDim S8x1 ![0])
    (x7 : IVec S8x1 32) : IVec S8x1 32 :=
  broadcastInDim S8x1 ![0] h1
    (select (cmpi .slt (fun i => shapeCast S8 x7 hc i) (broadcastInDim S8 ![] h0 (constantI S_ 32 0#32)))
      (addi (fun i => shapeCast S8 x7 hc i) (broadcastInDim S8 ![] h0 (constantI S_ 32 16#32)))
      (fun i => shapeCast S8 x7 hc i))

/-- Per batch, whether the wrapped index lies in `[0, 15]`: both comparisons, and-reduced over the unit axis. -/
def okv (h2 : S_.BroadcastsInDim S8x1 ![]) (h3 : S1.BroadcastsInDim S1x1 ![1]) (h4 : S1x1.BroadcastsInDim S8x1 ![0, 1])
    (hred : S8x1.ReducesTo [1] S8) (hu : 0 < S_.numel) (w : IVec S8x1 32) : IVec S8 1 :=
  Host.reduce IntOp.andi
    (andi (cmpi .sge w (broadcastInDim S8x1 ![] h2 (constantI S_ 32 0#32)))
      (cmpi .sle w (broadcastInDim S8x1 ![0, 1] h4 (broadcastInDim S1x1 ![1] h3 (constantI S1 32 15#32)))))
    (constantI S_ 1 1#1) hred hu

/-- The kernel's take of a pool at a column of indices: the gathered rows where the index is in `[0, 15]`, a
    fill word elsewhere. -/
def ktake {s t : Shape} (D : GatherDims s S8x1 t) {d1 : Fin S8.rank → Fin t.rank} (hb : S8.BroadcastsInDim t d1)
    {d0 : Fin S_.rank → Fin t.rank} (hb0 : S_.BroadcastsInDim t d0)
    (ok : IVec S8 1) (pool : s.Idx → EReal) (w : IVec S8x1 32) : t.Idx → EReal :=
  select (broadcastInDim t d1 hb ok) (Host.gather D pool w)
    (broadcastInDim t d0 hb0 (constant (F := Ideal) S_ .f32 0x7FC00000#32))

/-- A left fold by `and` over one-bit words that starts at 1 and meets only 1s is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    refine foldl_andi_of_all_one f l _ ?_ (fun n hn => h n (List.mem_cons_of_mem _ hn))
    rw [hi, h a List.mem_cons_self]
    decide

/-- A signed word in `[-16, 16)`, with sixteen added when it is negative, lies in `[0, 15]`. -/
theorem wrap_range (v : BitVec 32) (h : -16 ≤ v.toInt ∧ v.toInt < 16) :
    0 ≤ (Scalar.select (IntOp.cmpi .slt v 0#32) (IntOp.addi v 16#32) v).toInt
      ∧ (Scalar.select (IntOp.cmpi .slt v 0#32) (IntOp.addi v 16#32) v).toInt ≤ 15 := by
  have z : (0#32 : BitVec 32).toInt = 0 := by decide
  by_cases hneg : IntOp.cmpi .slt v 0#32 = 1#1
  · rw [hneg, select_one]
    have hlt : v.toInt < 0 := by have := IntOp.cmpi_slt.1 hneg; rwa [z] at this
    have e : (IntOp.addi v 16#32).toInt = v.toInt + 16 := by
      show (v + 16#32).toInt = v.toInt + 16
      rw [BitVec.toInt_add]
      have s : (16#32 : BitVec 32).toInt = 16 := by decide
      rw [s]
      exact Int.bmod_eq_of_le (by omega) (by omega)
    rw [e]
    omega
  · rw [eq_zero_of_ne_one hneg, select_zero]
    have hge : ¬ v.toInt < 0 := fun hlt => hneg (IntOp.cmpi_slt.2 (by rw [z]; exact hlt))
    omega

/-- The wrapped column read at row `b`: the selecting index of that row, sixteen added when negative. -/
theorem wcol_apply (hc : S8x1.ShapeCasts S8) (h0 : S_.BroadcastsInDim S8 ![]) (h1 : S8.BroadcastsInDim S8x1 ![0])
    (x7 : IVec S8x1 32) (i : S8x1.Idx) :
    wcol hc h0 h1 x7 i
      = Scalar.select (IntOp.cmpi .slt (x7 (ix2 (i 0) (0 : Fin 1))) 0#32) (IntOp.addi (x7 (ix2 (i 0) (0 : Fin 1))) 16#32)
          (x7 (ix2 (i 0) (0 : Fin 1))) := by
  unfold wcol
  rw [broadcastInDim_apply _ h1 _ i (ix1 (i 0)) (fun a => match a with
    | ⟨0, _⟩ => by show (i 0).val = if (8 : Nat) = 1 then 0 else (i 0).val; rw [if_neg (by decide)])]
  have e : shapeCast S8 x7 hc (ix1 (i 0)) = x7 (ix2 (i 0) (0 : Fin 1)) :=
    shapeCast_apply x7 hc (ix1 (i 0)) (ix2 (i 0) (0 : Fin 1))
      (by rw [Shape.rowMajor_val_two, Shape.rowMajor_val_one]; show (i 0).val * 1 + 0 = (i 0).val; omega)
  show Scalar.select (IntOp.cmpi .slt (shapeCast S8 x7 hc (ix1 (i 0))) 0#32) (IntOp.addi (shapeCast S8 x7 hc (ix1 (i 0))) 16#32)
      (shapeCast S8 x7 hc (ix1 (i 0))) = _
  rw [e]

/-- With every selecting index in `[-16, 16)`, every wrapped index lies in `[0, 15]`. -/
theorem wcol_range (hc : S8x1.ShapeCasts S8) (h0 : S_.BroadcastsInDim S8 ![]) (h1 : S8.BroadcastsInDim S8x1 ![0])
    (x7 : IVec S8x1 32) (hr : InRange x7) (i : S8x1.Idx) :
    0 ≤ (wcol hc h0 h1 x7 i).toInt ∧ (wcol hc h0 h1 x7 i).toInt ≤ 15 := by
  rw [wcol_apply]
  exact wrap_range _ (hr (i 0))

/-- Where every index of the column lies in `[0, 15]`, the in-range bit is 1 at every batch. -/
theorem okv_eq_one (h2 : S_.BroadcastsInDim S8x1 ![]) (h3 : S1.BroadcastsInDim S1x1 ![1]) (h4 : S1x1.BroadcastsInDim S8x1 ![0, 1])
    (hred : S8x1.ReducesTo [1] S8) (hu : 0 < S_.numel) (w : IVec S8x1 32)
    (hw : ∀ i : S8x1.Idx, 0 ≤ (w i).toInt ∧ (w i).toInt ≤ 15) (j : S8.Idx) : okv h2 h3 h4 hred hu w j = 1#1 := by
  unfold okv
  rw [Host.reduce_eq_foldl]
  refine foldl_andi_of_all_one _ _ _ rfl (fun i _ => ?_)
  show IntOp.andi (IntOp.cmpi .sge (w i) 0#32) (IntOp.cmpi .sle (w i) 15#32) = 1#1
  have z : (0#32 : BitVec 32).toInt = 0 := by decide
  have f : (15#32 : BitVec 32).toInt = 15 := by decide
  rw [IntOp.andi_eq_one, IntOp.cmpi_sge, IntOp.cmpi_sle, z, f]
  exact hw i

/-- Where the in-range bit is 1 at every batch, the kernel's take is the gather itself. -/
theorem ktake_eq {s t : Shape} (D : GatherDims s S8x1 t) {d1 : Fin S8.rank → Fin t.rank} (hb : S8.BroadcastsInDim t d1)
    {d0 : Fin S_.rank → Fin t.rank} (hb0 : S_.BroadcastsInDim t d0) (ok : IVec S8 1) (hok : ∀ j, ok j = 1#1)
    (pool : s.Idx → EReal) (w : IVec S8x1 32) : ktake D hb hb0 ok pool w = Host.gather D pool w := by
  funext i
  unfold ktake
  rw [select_apply]
  have e : broadcastInDim t d1 hb ok i = 1#1 := by unfold broadcastInDim; exact hok _
  rw [e, select_one]

/-- With every selecting index in range, the first down-projection table the kernel selects (wrap a negative index
    by sixteen, take the pool's row, fill where the wrapped index is outside `[0, 15]`, which never happens) is the
    table the reference selects (wrap, take the row). -/
theorem V_Aq (c : Dev nD) (hr : Cert.LoraSpec.InRange (m (c.tc.loc main_arg7))) :
    (V m c main_v10 : S8x1024x8.Idx → EReal)
      = Cert.ReferenceIdeal.Read.val_main_v20 (F := Ideal) (m (c.tc.loc main_arg3)) (m (c.tc.loc main_arg7)) (m (c.tc.loc main_arg8)) := by
  obtain ⟨M, e⟩ : ∃ M : IVec S8x1024x8 1, (V m c main_v10 : S8x1024x8.Idx → EReal)
      = select M
          (ktake gather_S16x1024x8_S8x1_S8x1024x8_12_0_n_n_0_1_110248 bcast_S8_S8x1024x8_0 bcast_S_S8x1024x8
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg3)) (wcol shapeCasts_S8x1_S8 bcast_S_S8 bcast_S8_S8x1_0 (m (c.tc.loc main_arg7))))
          (ktake gather_S16x1024x8_S8x1_S8x1024x8_12_0_n_n_0_1_110248 bcast_S8_S8x1024x8_0 bcast_S_S8x1024x8
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg3)) (wcol shapeCasts_S8x1_S8 bcast_S_S8 bcast_S8_S8x1_0 (m (c.tc.loc main_arg7)))) := by
    apply Exists.intro
    · dsimp only [Gen.V]
      simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
      after_results_simp
      simp only [StableHlo.TRef.ofBuf, StableHlo.TRef.toBuf, cast_eq]
      rfl
  have hw : wcol shapeCasts_S8x1_S8 bcast_S_S8 bcast_S8_S8x1_0 (m (c.tc.loc main_arg7))
      = Cert.ReferenceIdeal.Read.val_main_v18 (F := Ideal) (m (c.tc.loc main_arg7)) := by
    unfold wcol Cert.ReferenceIdeal.Read.val_main_v18 Cert.ReferenceIdeal.Read.val_main_v17 Cert.ReferenceIdeal.Read.val_main_v14 Cert.ReferenceIdeal.Read.val_main_v16 Cert.ReferenceIdeal.Read.val_main_v13 Cert.ReferenceIdeal.Read.val_main_v15 Cert.ReferenceIdeal.Read.val_main_v4 Cert.ReferenceIdeal.Read.val_main_c_1 Cert.ReferenceIdeal.Read.val_main_c_2
    rfl
  rw [e, select_self, ktake_eq _ _ _ _ (okv_eq_one _ _ _ _ _ _ (wcol_range _ _ _ _ hr)), hw]
  unfold Cert.ReferenceIdeal.Read.val_main_v20
  rw [select_self]
  rfl

/-- The same for the first up-projection table. -/
theorem V_Bq (c : Dev nD) (hr : Cert.LoraSpec.InRange (m (c.tc.loc main_arg7))) :
    (V m c main_v12 : S8x8x1024.Idx → EReal)
      = Cert.ReferenceIdeal.Read.val_main_v28 (F := Ideal) (m (c.tc.loc main_arg4)) (m (c.tc.loc main_arg7)) (m (c.tc.loc main_arg8)) := by
  obtain ⟨M, e⟩ : ∃ M : IVec S8x8x1024 1, (V m c main_v12 : S8x8x1024.Idx → EReal)
      = select M
          (ktake gather_S16x8x1024_S8x1_S8x8x1024_12_0_n_n_0_1_181024 bcast_S8_S8x8x1024_0 bcast_S_S8x8x1024
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg4)) (wcol shapeCasts_S8x1_S8 bcast_S_S8 bcast_S8_S8x1_0 (m (c.tc.loc main_arg7))))
          (ktake gather_S16x8x1024_S8x1_S8x8x1024_12_0_n_n_0_1_181024 bcast_S8_S8x8x1024_0 bcast_S_S8x8x1024
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg4)) (wcol shapeCasts_S8x1_S8 bcast_S_S8 bcast_S8_S8x1_0 (m (c.tc.loc main_arg7)))) := by
    apply Exists.intro
    · dsimp only [Gen.V]
      simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
      after_results_simp
      simp only [StableHlo.TRef.ofBuf, StableHlo.TRef.toBuf, cast_eq]
      rfl
  have hw : wcol shapeCasts_S8x1_S8 bcast_S_S8 bcast_S8_S8x1_0 (m (c.tc.loc main_arg7))
      = Cert.ReferenceIdeal.Read.val_main_v26 (F := Ideal) (m (c.tc.loc main_arg7)) := by
    unfold wcol Cert.ReferenceIdeal.Read.val_main_v26 Cert.ReferenceIdeal.Read.val_main_v25 Cert.ReferenceIdeal.Read.val_main_v22 Cert.ReferenceIdeal.Read.val_main_v24 Cert.ReferenceIdeal.Read.val_main_v21 Cert.ReferenceIdeal.Read.val_main_v23 Cert.ReferenceIdeal.Read.val_main_v4 Cert.ReferenceIdeal.Read.val_main_c_3 Cert.ReferenceIdeal.Read.val_main_c_4
    rfl
  rw [e, select_self, ktake_eq _ _ _ _ (okv_eq_one _ _ _ _ _ _ (wcol_range _ _ _ _ hr)), hw]
  unfold Cert.ReferenceIdeal.Read.val_main_v28
  rw [select_self]
  rfl

/-- The same for the second down-projection table. -/
theorem V_Av (c : Dev nD) (hr : Cert.LoraSpec.InRange (m (c.tc.loc main_arg7))) :
    (V m c main_v14 : S8x1024x8.Idx → EReal)
      = Cert.ReferenceIdeal.Read.val_main_v36 (F := Ideal) (m (c.tc.loc main_arg5)) (m (c.tc.loc main_arg7)) (m (c.tc.loc main_arg8)) := by
  obtain ⟨M, e⟩ : ∃ M : IVec S8x1024x8 1, (V m c main_v14 : S8x1024x8.Idx → EReal)
      = select M
          (ktake gather_S16x1024x8_S8x1_S8x1024x8_12_0_n_n_0_1_110248 bcast_S8_S8x1024x8_0 bcast_S_S8x1024x8
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg5)) (wcol shapeCasts_S8x1_S8 bcast_S_S8 bcast_S8_S8x1_0 (m (c.tc.loc main_arg7))))
          (ktake gather_S16x1024x8_S8x1_S8x1024x8_12_0_n_n_0_1_110248 bcast_S8_S8x1024x8_0 bcast_S_S8x1024x8
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg5)) (wcol shapeCasts_S8x1_S8 bcast_S_S8 bcast_S8_S8x1_0 (m (c.tc.loc main_arg7)))) := by
    apply Exists.intro
    · dsimp only [Gen.V]
      simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
      after_results_simp
      simp only [StableHlo.TRef.ofBuf, StableHlo.TRef.toBuf, cast_eq]
      rfl
  have hw : wcol shapeCasts_S8x1_S8 bcast_S_S8 bcast_S8_S8x1_0 (m (c.tc.loc main_arg7))
      = Cert.ReferenceIdeal.Read.val_main_v34 (F := Ideal) (m (c.tc.loc main_arg7)) := by
    unfold wcol Cert.ReferenceIdeal.Read.val_main_v34 Cert.ReferenceIdeal.Read.val_main_v33 Cert.ReferenceIdeal.Read.val_main_v30 Cert.ReferenceIdeal.Read.val_main_v32 Cert.ReferenceIdeal.Read.val_main_v29 Cert.ReferenceIdeal.Read.val_main_v31 Cert.ReferenceIdeal.Read.val_main_v4 Cert.ReferenceIdeal.Read.val_main_c_5 Cert.ReferenceIdeal.Read.val_main_c_6
    rfl
  rw [e, select_self, ktake_eq _ _ _ _ (okv_eq_one _ _ _ _ _ _ (wcol_range _ _ _ _ hr)), hw]
  unfold Cert.ReferenceIdeal.Read.val_main_v36
  rw [select_self]
  rfl

/-- The same for the second up-projection table. -/
theorem V_Bv (c : Dev nD) (hr : Cert.LoraSpec.InRange (m (c.tc.loc main_arg7))) :
    (V m c main_v16 : S8x8x1024.Idx → EReal)
      = Cert.ReferenceIdeal.Read.val_main_v44 (F := Ideal) (m (c.tc.loc main_arg6)) (m (c.tc.loc main_arg7)) (m (c.tc.loc main_arg8)) := by
  obtain ⟨M, e⟩ : ∃ M : IVec S8x8x1024 1, (V m c main_v16 : S8x8x1024.Idx → EReal)
      = select M
          (ktake gather_S16x8x1024_S8x1_S8x8x1024_12_0_n_n_0_1_181024 bcast_S8_S8x8x1024_0 bcast_S_S8x8x1024
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg6)) (wcol shapeCasts_S8x1_S8 bcast_S_S8 bcast_S8_S8x1_0 (m (c.tc.loc main_arg7))))
          (ktake gather_S16x8x1024_S8x1_S8x8x1024_12_0_n_n_0_1_181024 bcast_S8_S8x8x1024_0 bcast_S_S8x8x1024
            (okv bcast_S_S8x1 bcast_S1_S1x1_1 bcast_S1x1_S8x1_0_1 reducesTo_S8x1_S8_d1 h_S_
              (wcol shapeCasts_S8x1_S8 bcast_S_S8 bcast_S8_S8x1_0 (m (c.tc.loc main_arg7))))
            (m (c.tc.loc main_arg6)) (wcol shapeCasts_S8x1_S8 bcast_S_S8 bcast_S8_S8x1_0 (m (c.tc.loc main_arg7)))) := by
    apply Exists.intro
    · dsimp only [Gen.V]
      simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
      after_results_simp
      simp only [StableHlo.TRef.ofBuf, StableHlo.TRef.toBuf, cast_eq]
      rfl
  have hw : wcol shapeCasts_S8x1_S8 bcast_S_S8 bcast_S8_S8x1_0 (m (c.tc.loc main_arg7))
      = Cert.ReferenceIdeal.Read.val_main_v42 (F := Ideal) (m (c.tc.loc main_arg7)) := by
    unfold wcol Cert.ReferenceIdeal.Read.val_main_v42 Cert.ReferenceIdeal.Read.val_main_v41 Cert.ReferenceIdeal.Read.val_main_v38 Cert.ReferenceIdeal.Read.val_main_v40 Cert.ReferenceIdeal.Read.val_main_v37 Cert.ReferenceIdeal.Read.val_main_v39 Cert.ReferenceIdeal.Read.val_main_v4 Cert.ReferenceIdeal.Read.val_main_c_7 Cert.ReferenceIdeal.Read.val_main_c_8
    rfl
  rw [e, select_self, ktake_eq _ _ _ _ (okv_eq_one _ _ _ _ _ _ (wcol_range _ _ _ _ hr)), hw]
  unfold Cert.ReferenceIdeal.Read.val_main_v44
  rw [select_self]
  rfl

end Cert.KernelIdeal.Take

end
-- ==== Proof.Tables.lean ====
/-
  The kernel's host code fuses its four selected tables into two: the two down-projection tables side by side along the
  rank axis (sixteen ranks), and the two up-projection tables on the diagonal blocks of a 16 × 2048 table whose
  off-diagonal blocks are zero. Read at an index: a rank below eight belongs to the first table and from eight on to the
  second (at the rank less eight); a column below 1024 belongs to the left blocks and from 1024 on to the right (at the
  column less 1024); the change of float format is the identity on the extended reals and the zero word denotes 0.
-/
import proofs.«425949_j3805341024603_2_alg».proof.Proof.Gen.KernelIdeal.Frame
import proofs.«425949_j3805341024603_2_alg».proof.Proof.Gen.ReferenceIdeal.Read
import proofs.«425949_j3805341024603_2_alg».proof.Proof.Spec
import proofs.«425949_j3805341024603_2_alg».proof.Proof.Take
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.Tables

open Cert.KernelIdeal Cert.KernelIdeal.Gen Idealize.ShloMosaic Idealize.ShloMosaic.ValueIdx Idealize.SL.Sem

variable (m : (ℓ : Loc nD τ sig) → Buf (Elt Ideal) ℓ)

/-- The contents of core `c`'s buffers before the last stretch of host operations. -/
def beforeLast (c : Dev nD) : Valuation τ sig (Elt Ideal) :=
  StableHlo.after (List.flatten [hostOps0, hostOps0_1, hostOps0_2, hostOps0_3, hostOps0_4, hostOps0_5, hostOps0_6, hostOps0_7, hostOps0_8]) (fun b => m (c, b))

/-- What the region finds is the last stretch of host operations applied to the contents before it. -/
theorem V_split (c : Dev nD) (r : Ref sig .tc) :
    V m c r = StableHlo.after (hostOps0_9 (F := Ideal)) (beforeLast m c) (Proc.devRef .tc r) := by
  show StableHlo.after (List.flatten [hostOps0, hostOps0_1, hostOps0_2, hostOps0_3, hostOps0_4, hostOps0_5, hostOps0_6, hostOps0_7, hostOps0_8, hostOps0_9]) (fun b => m (c, b)) _ = _
  rw [beforeLast, ← StableHlo.after_append]
  congr 1

section LastStretch
variable (X : Valuation τ sig (Elt Ideal))

/-- The last stretch of host operations leaves the first selected down-projection table as found. -/
theorem last_v10 : StableHlo.after (hostOps0_9 (F := Ideal)) X (Proc.devRef .tc main_v10) = X (Proc.devRef .tc main_v10) := by
  dsimp only [hostOps0_9]; after_results
/-- The first selected up-projection table is left as found. -/
theorem last_v12 : StableHlo.after (hostOps0_9 (F := Ideal)) X (Proc.devRef .tc main_v12) = X (Proc.devRef .tc main_v12) := by
  dsimp only [hostOps0_9]; after_results
/-- The second selected down-projection table is left as found. -/
theorem last_v14 : StableHlo.after (hostOps0_9 (F := Ideal)) X (Proc.devRef .tc main_v14) = X (Proc.devRef .tc main_v14) := by
  dsimp only [hostOps0_9]; after_results
/-- The second selected up-projection table is left as found. -/
theorem last_v16 : StableHlo.after (hostOps0_9 (F := Ideal)) X (Proc.devRef .tc main_v16) = X (Proc.devRef .tc main_v16) := by
  dsimp only [hostOps0_9]; after_results

/-- The fused down-projection table: the two selected down-projection tables side by side along the rank axis, narrowed. -/
theorem last_v18 :
    (StableHlo.after (hostOps0_9 (F := Ideal)) X (Proc.devRef .tc main_v18) : S8x1024x16.Idx → EReal)
      = truncf (F := Ideal) (φ := .f32) .bf16 (concatenate S8x1024x16 2 [⟨S8x1024x8, (X (Proc.devRef .tc main_v10) : S8x1024x8.Idx → EReal)⟩, ⟨S8x1024x8, (X (Proc.devRef .tc main_v14) : S8x1024x8.Idx → EReal)⟩] concatenates_S8x1024x8_S8x1024x8_S8x1024x16_d2) bitsLt_bf16_f32 := by
  dsimp only [hostOps0_9]; after_results

/-- The fused up-projection table: the two selected up-projection tables, narrowed, on the diagonal blocks and zeros off them. -/
theorem last_v24 :
    (StableHlo.after (hostOps0_9 (F := Ideal)) X (Proc.devRef .tc main_v24) : S8x16x2048.Idx → EReal)
      = concatenate S8x16x2048 1
          [⟨S8x8x2048, concatenate S8x8x2048 2
              [⟨S8x8x1024, truncf (F := Ideal) (φ := .f32) .bf16 (X (Proc.devRef .tc main_v12) : S8x8x1024.Idx → EReal) bitsLt_bf16_f32⟩,
               ⟨S8x8x1024, broadcastInDim S8x8x1024 ![] bcast_S_S8x8x1024 (constant (F := Ideal) S_ .bf16 0x0000#16)⟩]
              concatenates_S8x8x1024_S8x8x1024_S8x8x2048_d2⟩,
           ⟨S8x8x2048, concatenate S8x8x2048 2
              [⟨S8x8x1024, broadcastInDim S8x8x1024 ![] bcast_S_S8x8x1024 (constant (F := Ideal) S_ .bf16 0x0000#16)⟩,
               ⟨S8x8x1024, truncf (F := Ideal) (φ := .f32) .bf16 (X (Proc.devRef .tc main_v16) : S8x8x1024.Idx → EReal) bitsLt_bf16_f32⟩]
              concatenates_S8x8x1024_S8x8x1024_S8x8x2048_d2⟩]
          concatenates_S8x8x2048_S8x8x2048_S8x16x2048_d1 := by
  dsimp only [hostOps0_9]; after_results

end LastStretch

/-- The broadcast bf16 zero constant reads the extended real `0` everywhere. -/
theorem zeros_apply (i : S8x8x1024.Idx) :
    broadcastInDim S8x8x1024 ![] bcast_S_S8x8x1024 (constant (F := Ideal) S_ .bf16 0x0000#16) i = (0 : EReal) := by
  show Ideal.ofBits .bf16 0x0000#16 = 0
  simp [Ideal.ofBits, Ideal.ieee]

section Points
variable (x y : S8x1024x8.Idx → EReal)

/-- Two tables side by side along the last axis, narrowed: a column of the first half reads the first table. -/
theorem sideBySide_lo (b : Fin 8) (k : Fin 1024) (r : Fin 8) :
    truncf (F := Ideal) (φ := .f32) .bf16 (concatenate S8x1024x16 2 [⟨S8x1024x8, x⟩, ⟨S8x1024x8, y⟩] concatenates_S8x1024x8_S8x1024x8_S8x1024x16_d2) bitsLt_bf16_f32 (ix3 b k (Cert.LoraSpec.lo r)) = x (ix3 b k r) := by
  rw [truncf_apply]
  refine concatenate_pair_apply_left (t := S8x1024x16) 2 x y concatenates_S8x1024x8_S8x1024x8_S8x1024x16_d2 (ix3 b k (Cert.LoraSpec.lo r)) rfl (ix3 b k r) ?_
  intro a
  match a with
  | ⟨0, _⟩ => rfl
  | ⟨1, _⟩ => rfl
  | ⟨2, _⟩ => rfl

/-- A column of the second half reads the second table, eight columns back. -/
theorem sideBySide_hi (b : Fin 8) (k : Fin 1024) (r : Fin 8) :
    truncf (F := Ideal) (φ := .f32) .bf16 (concatenate S8x1024x16 2 [⟨S8x1024x8, x⟩, ⟨S8x1024x8, y⟩] concatenates_S8x1024x8_S8x1024x8_S8x1024x16_d2) bitsLt_bf16_f32 (ix3 b k (Cert.LoraSpec.hi r)) = y (ix3 b k r) := by
  rw [truncf_apply]
  refine concatenate_pair_apply_right (t := S8x1024x16) 2 x y concatenates_S8x1024x8_S8x1024x8_S8x1024x16_d2 (ix3 b k (Cert.LoraSpec.hi r)) rfl rfl (ix3 b k r) ?_ ?_
  · intro a ha
    match a, ha with
    | ⟨0, _⟩, _ => rfl
    | ⟨1, _⟩, _ => rfl
    | ⟨2, _⟩, ha => exact absurd rfl ha
  · show r.val + 8 = 8 + r.val
    omega
end Points

section Blocks
variable (P Q : S8x8x2048.Idx → EReal) (u v : S8x8x1024.Idx → EReal)

/-- Two blocks stacked along the rank axis: a row of the first eight reads the first block. -/
theorem stacked_lo (b : Fin 8) (r : Fin 8) (j : Fin 2048) :
    concatenate S8x16x2048 1 [⟨S8x8x2048, P⟩, ⟨S8x8x2048, Q⟩] concatenates_S8x8x2048_S8x8x2048_S8x16x2048_d1 (ix3 b (Cert.LoraSpec.lo r) j) = P (ix3 b r j) := by
  refine concatenate_pair_apply_left (t := S8x16x2048) 1 P Q concatenates_S8x8x2048_S8x8x2048_S8x16x2048_d1 (ix3 b (Cert.LoraSpec.lo r) j) rfl (ix3 b r j) ?_
  intro a
  match a with
  | ⟨0, _⟩ => rfl
  | ⟨1, _⟩ => rfl
  | ⟨2, _⟩ => rfl

/-- A row of the last eight reads the second block, eight rows back. -/
theorem stacked_hi (b : Fin 8) (r : Fin 8) (j : Fin 2048) :
    concatenate S8x16x2048 1 [⟨S8x8x2048, P⟩, ⟨S8x8x2048, Q⟩] concatenates_S8x8x2048_S8x8x2048_S8x16x2048_d1 (ix3 b (Cert.LoraSpec.hi r) j) = Q (ix3 b r j) := by
  refine concatenate_pair_apply_right (t := S8x16x2048) 1 P Q concatenates_S8x8x2048_S8x8x2048_S8x16x2048_d1 (ix3 b (Cert.LoraSpec.hi r) j) rfl rfl (ix3 b r j) ?_ ?_
  · intro a ha
    match a, ha with
    | ⟨0, _⟩, _ => rfl
    | ⟨1, _⟩, ha => exact absurd rfl ha
    | ⟨2, _⟩, _ => rfl
  · show r.val + 8 = 8 + r.val
    omega

/-- Two tables side by side along the column axis: a column of the first half reads the first table. -/
theorem cols_left (b : Fin 8) (r : Fin 8) (j : Fin 1024) :
    concatenate S8x8x2048 2 [⟨S8x8x1024, u⟩, ⟨S8x8x1024, v⟩] concatenates_S8x8x1024_S8x8x1024_S8x8x2048_d2 (ix3 b r (Cert.LoraSpec.left j)) = u (ix3 b r j) := by
  refine concatenate_pair_apply_left (t := S8x8x2048) 2 u v concatenates_S8x8x1024_S8x8x1024_S8x8x2048_d2 (ix3 b r (Cert.LoraSpec.left j)) rfl (ix3 b r j) ?_
  intro a
  match a with
  | ⟨0, _⟩ => rfl
  | ⟨1, _⟩ => rfl
  | ⟨2, _⟩ => rfl

/-- A column of the second half reads the second table, 1024 columns back. -/
theorem cols_right (b : Fin 8) (r : Fin 8) (j : Fin 1024) :
    concatenate S8x8x2048 2 [⟨S8x8x1024, u⟩, ⟨S8x8x1024, v⟩] concatenates_S8x8x1024_S8x8x1024_S8x8x2048_d2 (ix3 b r (Cert.LoraSpec.right j)) = v (ix3 b r j) := by
  refine concatenate_pair_apply_right (t := S8x8x2048) 2 u v concatenates_S8x8x1024_S8x8x1024_S8x8x2048_d2 (ix3 b r (Cert.LoraSpec.right j)) rfl rfl (ix3 b r j) ?_ ?_
  · intro a ha
    match a, ha with
    | ⟨0, _⟩, _ => rfl
    | ⟨1, _⟩, _ => rfl
    | ⟨2, _⟩, ha => exact absurd rfl ha
  · show j.val + 1024 = 1024 + j.val
    omega
end Blocks

/-- The fused down-projection table the region finds, over the two selected down-projection tables it finds. -/
theorem V_fusedA (c : Dev nD) :
    (V m c main_v18 : S8x1024x16.Idx → EReal)
      = truncf (F := Ideal) (φ := .f32) .bf16 (concatenate S8x1024x16 2 [⟨S8x1024x8, (V m c main_v10 : S8x1024x8.Idx → EReal)⟩, ⟨S8x1024x8, (V m c main_v14 : S8x1024x8.Idx → EReal)⟩] concatenates_S8x1024x8_S8x1024x8_S8x1024x16_d2) bitsLt_bf16_f32 := by
  rw [V_split m c main_v18, V_split m c main_v10, V_split m c main_v14, last_v10, last_v14, last_v18]

/-- The fused up-projection table the region finds, over the two selected up-projection tables it finds. -/
theorem V_fusedB (c : Dev nD) :
    (V m c main_v24 : S8x16x2048.Idx → EReal)
      = concatenate S8x16x2048 1
          [⟨S8x8x2048, concatenate S8x8x2048 2
              [⟨S8x8x1024, truncf (F := Ideal) (φ := .f32) .bf16 (V m c main_v12 : S8x8x1024.Idx → EReal) bitsLt_bf16_f32⟩,
               ⟨S8x8x1024, broadcastInDim S8x8x1024 ![] bcast_S_S8x8x1024 (constant (F := Ideal) S_ .bf16 0x0000#16)⟩]
              concatenates_S8x8x1024_S8x8x1024_S8x8x2048_d2⟩,
           ⟨S8x8x2048, concatenate S8x8x2048 2
              [⟨S8x8x1024, broadcastInDim S8x8x1024 ![] bcast_S_S8x8x1024 (constant (F := Ideal) S_ .bf16 0x0000#16)⟩,
               ⟨S8x8x1024, truncf (F := Ideal) (φ := .f32) .bf16 (V m c main_v16 : S8x8x1024.Idx → EReal) bitsLt_bf16_f32⟩]
              concatenates_S8x8x1024_S8x8x1024_S8x8x2048_d2⟩]
          concatenates_S8x8x2048_S8x8x2048_S8x16x2048_d1 := by
  rw [V_split m c main_v24, V_split m c main_v12, V_split m c main_v16, last_v12, last_v16, last_v24]

/-- With every selecting index in range, the two fused tables the region finds are the reference's four selected
    tables laid out side by side (down-projections) and block-diagonally (up-projections): the kernel's
    out-of-range fill is never chosen, and both programs select with the same wrapped index. -/
theorem tables_fused (c : Dev nD) (hr : Cert.LoraSpec.InRange (m (c.tc.loc main_arg7))) :
    Cert.LoraSpec.Fused
      (Cert.ReferenceIdeal.Read.val_main_v20 (F := Ideal) (m (c.tc.loc main_arg3)) (m (c.tc.loc main_arg7)) (m (c.tc.loc main_arg8)))
      (Cert.ReferenceIdeal.Read.val_main_v36 (F := Ideal) (m (c.tc.loc main_arg5)) (m (c.tc.loc main_arg7)) (m (c.tc.loc main_arg8)))
      (Cert.ReferenceIdeal.Read.val_main_v28 (F := Ideal) (m (c.tc.loc main_arg4)) (m (c.tc.loc main_arg7)) (m (c.tc.loc main_arg8)))
      (Cert.ReferenceIdeal.Read.val_main_v44 (F := Ideal) (m (c.tc.loc main_arg6)) (m (c.tc.loc main_arg7)) (m (c.tc.loc main_arg8)))
      (V m c main_v18) (V m c main_v24) := by
  have e18 := V_fusedA m c
  have e24 := V_fusedB m c
  rw [Take.V_Aq m c hr, Take.V_Av m c hr] at e18
  rw [Take.V_Bq m c hr, Take.V_Bv m c hr] at e24
  refine ⟨?_, ?_, ?_, ?_, ?_, ?_⟩
  · intro b k r
    exact (congrFun e18 _).trans (sideBySide_lo _ _ b k r)
  · intro b k r
    exact (congrFun e18 _).trans (sideBySide_hi _ _ b k r)
  · intro b r j
    refine (congrFun e24 _).trans ?_
    rw [stacked_lo, cols_left, truncf_apply]
  · intro b r j
    refine (congrFun e24 _).trans ?_
    rw [stacked_lo, cols_right, zeros_apply]
  · intro b r j
    refine (congrFun e24 _).trans ?_
    rw [stacked_hi, cols_left, zeros_apply]
  · intro b r j
    refine (congrFun e24 _).trans ?_
    rw [stacked_hi, cols_right, truncf_apply]

end Cert.KernelIdeal.Tables

end
-- ==== Proof.Blocks.lean ====
/-
  The kernel's output array, block by block.

  The kernel runs on an 8 × 8 grid: point `t` has a batch `b` and a row tile, and writes the block of rows
  `512 · tile … 512 · tile + 511` of batch `b`, all 3072 columns, in three stores of 1024 columns each. Its inputs at
  that point are the same rows of the activations, the whole (transposed) weight, the bias row, and batch `b` of
  the two fused tables. Reading each input block through its window and each store through its rectangle, the block
  is the specified result restricted to those rows; the 64 blocks tile the array.
-/
import proofs.«425949_j3805341024603_2_alg».proof.Proof.Gen.KernelIdeal.Value
import proofs.«425949_j3805341024603_2_alg».proof.Proof.Gen.ReferenceIdeal.Read
import proofs.«425949_j3805341024603_2_alg».proof.Proof.Spec
import proofs.«425949_j3805341024603_2_alg».proof.Proof.Payload
import proofs.«425949_j3805341024603_2_alg».proof.Proof.HostSimple
import proofs.«425949_j3805341024603_2_alg».proof.Proof.Tables
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specified result of the kernel's own arguments, with the reference's selection of the four tables. -/
abbrev spec (c : Dev nD) : Cert.LoraSpec.SO.Idx → EReal :=
  Cert.LoraSpec.out Cert.LoraSpec.c1 (m (c.tc.loc main_arg0)) (m (c.tc.loc main_arg1)) (m (c.tc.loc main_arg2))
    (Cert.ReferenceIdeal.Read.val_main_v20 (F := Ideal) (m (c.tc.loc main_arg3)) (m (c.tc.loc main_arg7)) (m (c.tc.loc main_arg8)))
    (Cert.ReferenceIdeal.Read.val_main_v28 (F := Ideal) (m (c.tc.loc main_arg4)) (m (c.tc.loc main_arg7)) (m (c.tc.loc main_arg8)))
    (Cert.ReferenceIdeal.Read.val_main_v36 (F := Ideal) (m (c.tc.loc main_arg5)) (m (c.tc.loc main_arg7)) (m (c.tc.loc main_arg8)))
    (Cert.ReferenceIdeal.Read.val_main_v44 (F := Ideal) (m (c.tc.loc main_arg6)) (m (c.tc.loc main_arg7)) (m (c.tc.loc main_arg8)))

/-! ## The grid -/

/-- The printed index maps, decided over the 64 grid points: the row block and both fused tables move with the output's
    batch coordinate, the row block also with its row-tile coordinate, the weight and the bias stay put, and the
    output's block coordinates stay in range. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 7 ∧ win0_5.index t (1 : Fin 3) ≤ 7 ∧ win0_5.index t (2 : Fin 3) = 0 :=
  (by decide +kernel : ∀ t : Fin grid0.N, _)

/-- Every (batch, row tile) pair is some point's output block. -/
theorem idx_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-- The batch of point `t`. -/
def batchOf (t : Fin cfg0.N) : Fin 8 :=
  ⟨win0_5.index t (0 : Fin 3), by obtain ⟨-, -, -, -, -, -, -, -, -, -, -, -, -, h, -, -⟩ := idx_facts t; omega⟩

/-- Row `r` of point `t`'s tile, as a row of the array. -/
def rowOf (t : Fin cfg0.N) (r : Fin 512) : Fin 4096 :=
  ⟨win0_5.index t (1 : Fin 3) * 512 + r.val, by
    obtain ⟨-, -, -, -, -, -, -, -, -, -, -, -, -, -, h, -⟩ := idx_facts t; have := r.isLt; omega⟩

/-! ## The input blocks at a point, read through their windows -/

/-- The row block of the activations at a point, at its literal type. -/
abbrev xb (c : Dev nD) (t : Fin cfg0.N) : Vec Ideal S1x512x1024 .f32 := iblk m c 0 t
/-- The weight as the region finds it (one block: the whole array). -/
abbrev wb (c : Dev nD) (t : Fin cfg0.N) : Vec Ideal S1024x3072 .bf16 := iblk m c 1 t
/-- The bias row (one block). -/
abbrev bb (c : Dev nD) (t : Fin cfg0.N) : Vec Ideal S1x3072 .f32 := iblk m c 2 t
/-- The point's batch of the fused down-projection table. -/
abbrev a2b (c : Dev nD) (t : Fin cfg0.N) : Vec Ideal S1x1024x16 .bf16 := iblk m c 3 t
/-- The point's batch of the fused up-projection table. -/
abbrev b2b (c : Dev nD) (t : Fin cfg0.N) : Vec Ideal S1x16x2048 .bf16 := iblk m c 4 t

/-- Entry `(0, r, k)` of the row block is the activations' entry at the point's batch, its row `r`, column `k`. -/
theorem xb_apply (c : Dev nD) (t : Fin cfg0.N) (r : Fin 512) (k : Fin 1024) :
    xb m c t (ix3 (0 : Fin 1) r k) = (m (c.tc.loc main_arg0) : S8x4096x1024.Idx → EReal) (ix3 (batchOf t) (rowOf t r) k) := by
  obtain ⟨e0, e1, e2, -⟩ := idx_facts t
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = win0_5.index t (0 : Fin 3); omega
  | ⟨1, _⟩ => show win0_0.index t (1 : Fin 3) * 512 + 1 * r.val = win0_5.index t (1 : Fin 3) * 512 + r.val; omega
  | ⟨2, _⟩ => show win0_0.index t (2 : Fin 3) * 1024 + 1 * k.val = k.val; omega

/-- Entry `(k, o)` of the weight block is the weight argument's `(o, k)`. -/
theorem wb_apply (c : Dev nD) (t : Fin cfg0.N) (k : Fin 1024) (o : Fin 3072) :
    wb m c t (ix2 k o) = (m (c.tc.loc main_arg1) : S3072x1024.Idx → EReal) (ix2 o k) := by
  obtain ⟨-, -, -, e3, e4, -⟩ := idx_facts t
  have he : ((cfg0.win 1).blk t).view.emb (ix2 k o) = (ix2 k o : S1024x3072.Idx) := funext fun a => Fin.ext (by
    match a with
    | ⟨0, _⟩ => show win0_1.index t (0 : Fin 2) * 1024 + 1 * k.val = k.val; omega
    | ⟨1, _⟩ => show win0_1.index t (1 : Fin 2) * 3072 + 1 * o.val = o.val; omega)
  show V m c main_v26 (((cfg0.win 1).blk t).view.emb (ix2 k o)) = _
  rw [he]
  exact Cert.KernelIdeal.HostSide.V_wT m c k o

/-- Entry `(0, o)` of the bias block is the bias argument's entry `o`. -/
theorem bb_apply (c : Dev nD) (t : Fin cfg0.N) (o : Fin 3072) :
    bb m c t (ix2 (0 : Fin 1) o) = (m (c.tc.loc main_arg2) : S3072.Idx → EReal) (ix1 o) := by
  obtain ⟨-, -, -, -, -, e5, e6, -⟩ := idx_facts t
  have he : ((cfg0.win 2).blk t).view.emb (ix2 (0 : Fin 1) o) = (ix2 (0 : Fin 1) o : S1x3072.Idx) := funext fun a => Fin.ext (by
    match a with
    | ⟨0, _⟩ => show win0_2.index t (0 : Fin 2) * 1 + 1 * 0 = 0; omega
    | ⟨1, _⟩ => show win0_2.index t (1 : Fin 2) * 3072 + 1 * o.val = o.val; omega)
  show V m c main_v27 (((cfg0.win 2).blk t).view.emb (ix2 (0 : Fin 1) o)) = _
  rw [he]
  exact Cert.KernelIdeal.HostSide.V_bias m c o

/-- Entry `(0, k, r')` of the fused down-projection block is the fused table's entry at the point's batch. -/
theorem a2b_apply (c : Dev nD) (t : Fin cfg0.N) (k : Fin 1024) (r' : Fin 16) :
    a2b m c t (ix3 (0 : Fin 1) k r') = (V m c main_v18 : S8x1024x16.Idx → EReal) (ix3 (batchOf t) k r') := by
  obtain ⟨-, -, -, -, -, -, -, e7, e8, e9, -⟩ := idx_facts t
  have he : ((cfg0.win 3).blk t).view.emb (ix3 (0 : Fin 1) k r') = (ix3 (batchOf t) k r' : S8x1024x16.Idx) := funext fun a => Fin.ext (by
    match a with
    | ⟨0, _⟩ => show win0_3.index t (0 : Fin 3) * 1 + 1 * 0 = win0_5.index t (0 : Fin 3); omega
    | ⟨1, _⟩ => show win0_3.index t (1 : Fin 3) * 1024 + 1 * k.val = k.val; omega
    | ⟨2, _⟩ => show win0_3.index t (2 : Fin 3) * 16 + 1 * r'.val = r'.val; omega)
  show V m c main_v18 (((cfg0.win 3).blk t).view.emb (ix3 (0 : Fin 1) k r')) = _
  rw [he]

/-- Entry `(0, r', j')` of the fused up-projection block is the fused table's entry at the point's batch. -/
theorem b2b_apply (c : Dev nD) (t : Fin cfg0.N) (r' : Fin 16) (j' : Fin 2048) :
    b2b m c t (ix3 (0 : Fin 1) r' j') = (V m c main_v24 : S8x16x2048.Idx → EReal) (ix3 (batchOf t) r' j') := by
  obtain ⟨-, -, -, -, -, -, -, -, -, -, e10, e11, e12, -⟩ := idx_facts t
  have he : ((cfg0.win 4).blk t).view.emb (ix3 (0 : Fin 1) r' j') = (ix3 (batchOf t) r' j' : S8x16x2048.Idx) := funext fun a => Fin.ext (by
    match a with
    | ⟨0, _⟩ => show win0_4.index t (0 : Fin 3) * 1 + 1 * 0 = win0_5.index t (0 : Fin 3); omega
    | ⟨1, _⟩ => show win0_4.index t (1 : Fin 3) * 16 + 1 * r'.val = r'.val; omega
    | ⟨2, _⟩ => show win0_4.index t (2 : Fin 3) * 2048 + 1 * j'.val = j'.val; omega)
  show V m c main_v24 (((cfg0.win 4).blk t).view.emb (ix3 (0 : Fin 1) r' j')) = _
  rw [he]

/-! ## The three stores at a point -/

/-- The body's projection at a point is the base projection at the point's batch and row. -/
theorem proj_at (c : Dev nD) (t : Fin cfg0.N) (r : Fin 512) (o : Fin 3072) :
    k0_pay3 (F := Ideal) (xb m c t) (wb m c t) (bb m c t) (ix2 r o)
      = Cert.LoraSpec.base (m (c.tc.loc main_arg0)) (m (c.tc.loc main_arg1)) (m (c.tc.loc main_arg2)) (batchOf t) (rowOf t r) o := by
  rw [Cert.KernelIdeal.Pay.pay3_apply]
  unfold Cert.LoraSpec.base
  simp only [xb_apply, wb_apply, bb_apply]

/-- The body's fused update at a point is the fused sum over sixteen ranks at the point's batch and row. -/
theorem fused_at (c : Dev nD) (t : Fin cfg0.N) (r : Fin 512) (j' : Fin 2048) :
    k0_pay4 (F := Ideal) (xb m c t) (a2b m c t) (b2b m c t) (ix2 r j')
      = Cert.LoraSpec.fused (m (c.tc.loc main_arg0)) (V m c main_v18) (V m c main_v24) (batchOf t) (rowOf t r) j' := by
  rw [Cert.KernelIdeal.Pay.pay4_apply]
  unfold Cert.LoraSpec.fused
  simp only [xb_apply, a2b_apply, b2b_apply]

/-- The first band's store is the specified result on the first 1024 columns. -/
theorem band0_at (c : Dev nD) (hr : Cert.LoraSpec.InRange (m (c.tc.loc main_arg7))) (t : Fin cfg0.N) (r : Fin 512) (j : Fin 1024) :
    k0_pay6 (F := Ideal) (xb m c t) (wb m c t) (bb m c t) (a2b m c t) (b2b m c t) (ix3 (0 : Fin 1) r j)
      = spec m c (ix3 (batchOf t) (rowOf t r) (Cert.LoraSpec.col0 j)) := by
  rw [Cert.KernelIdeal.Pay.pay6_apply, proj_at, fused_at, Cert.LoraSpec.fused_left (Cert.KernelIdeal.Tables.tables_fused m c hr)]
  exact (Cert.LoraSpec.out_band0 _ _ _ _ _ _ _ _ _ _ _).symm

/-- The middle band's store is the specified result on the middle 1024 columns. -/
theorem band1_at (c : Dev nD) (t : Fin cfg0.N) (r : Fin 512) (j : Fin 1024) :
    k0_pay7 (F := Ideal) (xb m c t) (wb m c t) (bb m c t) (ix3 (0 : Fin 1) r j)
      = spec m c (ix3 (batchOf t) (rowOf t r) (Cert.LoraSpec.col1 j)) := by
  rw [Cert.KernelIdeal.Pay.pay7_apply, proj_at]
  exact (Cert.LoraSpec.out_band1 _ _ _ _ _ _ _ _ _ _ _).symm

/-- The last band's store is the specified result on the last 1024 columns. -/
theorem band2_at (c : Dev nD) (hr : Cert.LoraSpec.InRange (m (c.tc.loc main_arg7))) (t : Fin cfg0.N) (r : Fin 512) (j : Fin 1024) :
    k0_pay1 (F := Ideal) (k0_pay5 (F := Ideal) (xb m c t) (a2b m c t) (b2b m c t)) (k0_pay8 (F := Ideal) (xb m c t) (wb m c t) (bb m c t))
        (Scalar.ofBits .f32 0x3F800000#32) (ix3 (0 : Fin 1) r j)
      = spec m c (ix3 (batchOf t) (rowOf t r) (Cert.LoraSpec.col2 j)) := by
  rw [Cert.KernelIdeal.Pay.pay1_apply, proj_at, fused_at, Cert.LoraSpec.fused_right (Cert.KernelIdeal.Tables.tables_fused m c hr)]
  exact (Cert.LoraSpec.out_band2 _ _ _ _ _ _ _ _ _ _ _).symm

/-! ## The output block -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Three stores of 1024 columns each, every one the restriction of ONE function `G` of the block index to its
    columns, leave the block at `G`. -/
theorem out_block_eq (x0 : Vec Ideal S1x512x1024 .f32) (x1 : Vec Ideal S1024x3072 .bf16) (x2 : Vec Ideal S1x3072 .f32)
    (x3 : Vec Ideal S1x1024x16 .bf16) (x4 : Vec Ideal S1x16x2048 .bf16) (G : S1x512x3072.Idx → EReal)
    (h0 : ∀ (r : Fin 512) (j : Fin 1024), k0_pay6 (F := Ideal) x0 x1 x2 x3 x4 (ix3 (0 : Fin 1) r j) = G (ix3 (0 : Fin 1) r (Cert.LoraSpec.col0 j)))
    (h1 : ∀ (r : Fin 512) (j : Fin 1024), k0_pay7 (F := Ideal) x0 x1 x2 (ix3 (0 : Fin 1) r j) = G (ix3 (0 : Fin 1) r (Cert.LoraSpec.col1 j)))
    (h2 : ∀ (r : Fin 512) (j : Fin 1024), k0_pay1 (F := Ideal) (k0_pay5 (F := Ideal) x0 x3 x4) (k0_pay8 (F := Ideal) x0 x1 x2)
        (Scalar.ofBits .f32 0x3F800000#32) (ix3 (0 : Fin 1) r j) = G (ix3 (0 : Fin 1) r (Cert.LoraSpec.col2 j))) :
    out0_5 (F := Ideal) x0 x1 x2 x3 x4 = G := by
  funext y
  unfold out0_5
  simp only [View.ld_unit_zero (S := S1x512x1024) zeros3, View.ld_unit_zero (S := S1024x3072) zeros2, View.ld_unit_zero (S := S1x3072) zeros2,
    View.ld_unit_zero (S := S1x1024x16) zeros3, View.ld_unit_zero (S := S1x16x2048) zeros3]
  refine View.canon_apply_of_pieces (Val := Elt Ideal) (e := .f32) G _ ?_ y (cover0_5 _ _ _ y)
  intro p hp x
  simp only [List.mem_cons, List.mem_singleton, List.not_mem_nil, or_false] at hp
  rcases hp with rfl | rfl | rfl
  · obtain ⟨r, j, rfl⟩ : ∃ (r : Fin 512) (j : Fin 1024), x = ix3 (0 : Fin 1) r j := ⟨x 1, x 2, funext fun a => by
      match a with
      | ⟨0, _⟩ => exact Fin.ext (by have : (x 0).val < 1 := (x 0).isLt; show (x 0).val = 0; omega)
      | ⟨1, _⟩ => rfl
      | ⟨2, _⟩ => rfl⟩
    refine (h2 r j).trans (congrArg G (funext fun a => Fin.ext ?_))
    match a with
    | ⟨0, _⟩ => rfl
    | ⟨1, _⟩ => show r.val = 0 + 1 * r.val; omega
    | ⟨2, _⟩ => show 2048 + j.val = 2048 + 1 * j.val; omega
  · obtain ⟨r, j, rfl⟩ : ∃ (r : Fin 512) (j : Fin 1024), x = ix3 (0 : Fin 1) r j := ⟨x 1, x 2, funext fun a => by
      match a with
      | ⟨0, _⟩ => exact Fin.ext (by have : (x 0).val < 1 := (x 0).isLt; show (x 0).val = 0; omega)
      | ⟨1, _⟩ => rfl
      | ⟨2, _⟩ => rfl⟩
    refine (h1 r j).trans (congrArg G (funext fun a => Fin.ext ?_))
    match a with
    | ⟨0, _⟩ => rfl
    | ⟨1, _⟩ => show r.val = 0 + 1 * r.val; omega
    | ⟨2, _⟩ => show 1024 + j.val = 1024 + 1 * j.val; omega
  · obtain ⟨r, j, rfl⟩ : ∃ (r : Fin 512) (j : Fin 1024), x = ix3 (0 : Fin 1) r j := ⟨x 1, x 2, funext fun a => by
      match a with
      | ⟨0, _⟩ => exact Fin.ext (by have : (x 0).val < 1 := (x 0).isLt; show (x 0).val = 0; omega)
      | ⟨1, _⟩ => rfl
      | ⟨2, _⟩ => rfl⟩
    refine (h0 r j).trans (congrArg G (funext fun a => Fin.ext ?_))
    match a with
    | ⟨0, _⟩ => rfl
    | ⟨1, _⟩ => show r.val = 0 + 1 * r.val; omega
    | ⟨2, _⟩ => show j.val = 0 + 1 * j.val; omega

/-- WHAT POINT `t` WRITES BACK is its block of the specified result. -/
theorem flushed_eq (c : Dev nD) (hr : Cert.LoraSpec.InRange (m (c.tc.loc main_arg7))) (t : Fin cfg0.N) :
    (dats m 0 c).flushed 5 t = ((cfg0.win 5).blk t).view.read (Elt Ideal) (spec m c) := by
  obtain ⟨-, -, -, -, -, -, -, -, -, -, -, -, -, -, -, e15⟩ := idx_facts t
  rw [Cert.KernelIdeal.Value.flushed5]
  show out0_5 (F := Ideal) (xb m c t) (wb m c t) (bb m c t) (a2b m c t) (b2b m c t) = _
  rw [out_block_eq (xb m c t) (wb m c t) (bb m c t) (a2b m c t) (b2b m c t)
    (fun y : S1x512x3072.Idx => spec m c (ix3 (batchOf t) (rowOf t (y 1)) (y 2)))
    (fun r j => band0_at m c hr t r j) (fun r j => band1_at m c t r j) (fun r j => band2_at m c hr t r j)]
  funext y
  show spec m c (ix3 (batchOf t) (rowOf t (y 1)) (y 2)) = spec m c (((cfg0.win 5).blk t).view.emb y)
  refine congrArg _ (funext fun a => Fin.ext ?_)
  match a with
  | ⟨0, _⟩ => show win0_5.index t (0 : Fin 3) = win0_5.index t (0 : Fin 3) * 1 + 1 * (y 0).val; have : (y 0).val < 1 := (y 0).isLt; omega
  | ⟨1, _⟩ => show win0_5.index t (1 : Fin 3) * 512 + (y 1).val = win0_5.index t (1 : Fin 3) * 512 + 1 * (y 1).val; omega
  | ⟨2, _⟩ => show (y 2).val = win0_5.index t (2 : Fin 3) * 3072 + 1 * (y 2).val; omega

/-! ## The blocks tile the array -/

/-- An index of the array is in point `t`'s block iff each coordinate is in the block's range on its axis. -/
theorem mem_blk (t : Fin cfg0.N) (i : S8x4096x3072.Idx) :
    i ∈ ((cfg0.win 5).blk t).view.set ↔ ∀ a : Fin 3, win0_5.index t a * S1x512x3072.size a ≤ (i a).val ∧ (i a).val < win0_5.index t a * S1x512x3072.size a + S1x512x3072.size a := by
  show i ∈ ((View.whole main_v28).slice (win0_5.rect t)).set ↔ _
  rw [View.set_slice_whole, Rect.mem_set_unit]
  exact Iff.rfl

/-- Every index of the array is in some point's block: the point of its batch and of its row's tile. -/
theorem cover (i : S8x4096x3072.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 3072 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 3072 ≤ (i 2).val ∧ (i 2).val < win0_5.index t (2 : Fin 3) * 3072 + 3072; omega

/-- After the run the output array is the specified result. -/
theorem final (c : Dev nD) (hr : Cert.LoraSpec.InRange (m (c.tc.loc main_arg7))) : (dats m 0 c).arrAt 5 cfg0.N = spec m c :=
  (dats m 0 c).arrAt_eq_of_cover 5 (spec m c) (fun t _ => flushed_eq m c hr t) cover

/-- The kernel's run, with its output array named as the specified result and its arguments unchanged. -/
theorem run (hr : ∀ c : Dev nD, Cert.LoraSpec.InRange (m (c.tc.loc main_arg7))) :
    θ_run defs (onTc (τ := τ) (main (F := Ideal))) ⟨m, fun _ => 0, ρ⟩ fun r => ∀ c : Dev nD,
      r.2.mem (c.tc.loc main_v28) = spec m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) :=
  (θ_run defs _ _).mono (fun r h c => ⟨(h c).1.trans (final m c (hr c)), (h c).2⟩) (Cert.KernelIdeal.Value.run_blocks m ρ)

end Cert.KernelIdeal.Blocks

end
-- ==== Proof.LibScatter.lean ====
/-
  A host scatter read at an index, when distinct update positions land on distinct result positions.
-/
import Idealize.ShloMosaic.PureOps.ShapeOps

namespace Cert.LibScatter

open Idealize.ShloMosaic

variable {α : Type} {s si u : Shape} {w : Nat}

section Fold

variable {β ι : Type} [DecidableEq ι]

/-- One step of a pointwise-overwriting fold: position `n` replaces the element at `h n` by that element
    combined with `v n`, and leaves every other element alone. -/
def overwrite (f : α → α → α) (h : β → ι) (v : β → α) (r : ι → α) (n : β) : ι → α :=
  fun i' => if i' = h n then f (r (h n)) (v n) else r i'

/-- Folding the overwriting step over positions none of which lands on `i` leaves the element at `i` alone. -/
theorem foldl_overwrite_miss (f : α → α → α) (h : β → ι) (v : β → α) (i : ι) :
    ∀ (L : List β) (r0 : ι → α), (∀ n ∈ L, h n ≠ i) → L.foldl (overwrite f h v) r0 i = r0 i
  | [], _, _ => rfl
  | a :: L, r0, hL => by
    rw [List.foldl_cons, foldl_overwrite_miss f h v i L _ (fun n hn => hL n (List.mem_cons_of_mem a hn))]
    have ha : i ≠ h a := fun e => hL a List.mem_cons_self e.symm
    simp only [overwrite, if_neg ha]

/-- Folding the overwriting step over a list of distinct positions, with `h` injective: the element at `h n`, for
    `n` in the list, is the starting element there combined with `v n` alone. -/
theorem foldl_overwrite_hit (f : α → α → α) (h : β → ι) (v : β → α) (hinj : Function.Injective h) (n : β) :
    ∀ (L : List β) (r0 : ι → α), L.Nodup → n ∈ L → L.foldl (overwrite f h v) r0 (h n) = f (r0 (h n)) (v n)
  | [], _, _, hn => absurd hn List.not_mem_nil
  | a :: L, r0, hnd, hn => by
    rw [List.foldl_cons]
    obtain ⟨haL, hndL⟩ := List.nodup_cons.mp hnd
    rcases List.mem_cons.mp hn with rfl | hnL
    · -- the head is `n` itself: no later position lands on `h n`
      rw [foldl_overwrite_miss f h v (h n) L _ (fun m hm e => haL (hinj e ▸ hm))]
      simp only [overwrite, if_true]
    · -- `n` comes later: the head lands elsewhere
      rw [foldl_overwrite_hit f h v hinj n L _ hndL hnL]
      have hne : h n ≠ h a := fun e => haL (hinj e ▸ hnL)
      simp only [overwrite, if_neg hne]

end Fold

/-- Where every update position lands inside the operand, at `g j`, the scatter is the fold of the overwriting step
    over all update positions in row-major order. -/
theorem scatter_eq_foldl (d : ScatterDims s si u) (f : α → α → α) (x : s.Idx → α) (idx : IVec si w) (upd : u.Idx → α)
    (g : u.Idx → s.Idx) (hg : ∀ j, d.resultIdx? j idx = some (g j)) :
    Host.scatter d f x idx upd
      = (List.finRange u.numel).foldl
          (overwrite f (fun n => g (u.rowMajor.symm n)) (fun n => upd (u.rowMajor.symm n))) x := by
  unfold Host.scatter
  congr 1
  funext r n
  simp only [hg]
  rfl

/-- Where every update position `j` lands inside the operand, at `g j`, and `g` is injective, the result at `g j` is the
    operand's element there combined with update `j` alone. -/
theorem scatter_hit (d : ScatterDims s si u) (f : α → α → α) (x : s.Idx → α) (idx : IVec si w) (upd : u.Idx → α)
    (g : u.Idx → s.Idx) (hg : ∀ j, d.resultIdx? j idx = some (g j)) (hinj : Function.Injective g) (j : u.Idx) :
    Host.scatter d f x idx upd (g j) = f (x (g j)) (upd j) := by
  rw [scatter_eq_foldl d f x idx upd g hg]
  have hinj' : Function.Injective (fun n : Fin u.numel => g (u.rowMajor.symm n)) :=
    hinj.comp u.rowMajor.symm.injective
  have key := foldl_overwrite_hit f (fun n : Fin u.numel => g (u.rowMajor.symm n))
    (fun n => upd (u.rowMajor.symm n)) hinj' (u.rowMajor j) (List.finRange u.numel) x
    (List.nodup_finRange _) (List.mem_finRange _)
  simpa only [Equiv.symm_apply_apply] using key

/-- And a result position no update lands on keeps the operand's element. -/
theorem scatter_miss (d : ScatterDims s si u) (f : α → α → α) (x : s.Idx → α) (idx : IVec si w) (upd : u.Idx → α)
    (g : u.Idx → s.Idx) (hg : ∀ j, d.resultIdx? j idx = some (g j)) (i : s.Idx) (hi : ∀ j, g j ≠ i) :
    Host.scatter d f x idx upd i = x i := by
  rw [scatter_eq_foldl d f x idx upd g hg]
  exact foldl_overwrite_miss f _ _ i _ x (fun n _ => hi _)

end Cert.LibScatter
-- ==== Proof.ScatterBands.lean ====
/-
  The reference adds an 8 × 4096 × 1024 update into columns `off … off + 1023` of an 8 × 4096 × 3072 array. Update
  position `(b, n, j)` lands on `(b, n, off + j)`: these landing positions are all inside the array and pairwise
  distinct, so inside the band each element meets exactly one update element, and outside it none.
-/
import proofs.«425949_j3805341024603_2_alg».proof.ReferenceIdeal
import proofs.«425949_j3805341024603_2_alg».proof.Proof.Gen.ReferenceIdeal
import proofs.«425949_j3805341024603_2_alg».proof.Proof.LibScatter
import Idealize.ShloMosaic.Lib.ValueIdx
import Idealize.ShloMosaic.Lib.StableHlo.Predicate

noncomputable section

namespace Cert.ReferenceIdeal.Bands

open Cert.ReferenceIdeal Cert.ReferenceIdeal.Gen Idealize.ShloMosaic Idealize.ShloMosaic.ValueIdx

variable {α : Type}

/-- The banded update's dimension numbers: the update's three axes are window axes onto the operand's three axes,
    and the one start index is the start on the last axis. -/
abbrev bandDims : ScatterDims S8x4096x3072 S1 S8x4096x1024 := scatter_S8x4096x3072_S1_S8x4096x1024_012_n_2_0

/-- Where update position `j` lands: the same batch and row, the column moved up by `off`. -/
def land (off : Nat) (hoff : off + 1024 ≤ 3072) (j : S8x4096x1024.Idx) : S8x4096x3072.Idx :=
  ix3 (j 0) (j 1) (⟨off + (j 2).val, by have : (j 2).val < 1024 := (j 2).isLt; omega⟩ : Fin 3072)

/-- A one-element index vector reads the same word at every index. -/
theorem idx_const (idx : IVec S1 32) (v : BitVec 32) (hidx : idx (ix1 (0 : Fin 1)) = v) (i : S1.Idx) : idx i = v := by
  have h0 : @Eq (Fin 1) (i 0) 0 := Fin.ext (by have : (i 0).val < 1 := (i 0).isLt; show (i 0).val = 0; omega)
  have hi : i = ix1 (0 : Fin 1) := (eq_ix1 i).trans (congrArg ix1 h0)
  rw [hi]; exact hidx

/-- On every operand axis the start plus the window coordinate of update position `j` is the coordinate of `land j`. -/
theorem start_add_window (off : Nat) (hoff : off + 1024 ≤ 3072) (idx : IVec S1 32)
    (hidx : idx (ix1 (0 : Fin 1)) = BitVec.ofNat 32 off) (j : S8x4096x1024.Idx) (a : Fin 3) :
    bandDims.start j idx a + bandDims.window j a = ((land off hoff j a).val : Int) := by
  match a with
  | ⟨0, _⟩ =>
    have hs : bandDims.start j idx 0 = 0 := rfl
    have hw : bandDims.window j 0 = (j 0).val := rfl
    show bandDims.start j idx 0 + bandDims.window j 0 = ((j 0).val : Int)
    rw [hs, hw]; omega
  | ⟨1, _⟩ =>
    have hs : bandDims.start j idx 1 = 0 := rfl
    have hw : bandDims.window j 1 = (j 1).val := rfl
    show bandDims.start j idx 1 + bandDims.window j 1 = ((j 1).val : Int)
    rw [hs, hw]; omega
  | ⟨2, _⟩ =>
    have hs : bandDims.start j idx 2 = (idx (bandDims.siIdx j ⟨0, by decide⟩)).toInt := rfl
    have hw : bandDims.window j 2 = (j 2).val := rfl
    show bandDims.start j idx 2 + bandDims.window j 2 = ((off + (j 2).val : Nat) : Int)
    rw [hs, hw, idx_const idx _ hidx, StableHlo.Predicate.toInt_ofNat_small off (by omega)]; omega

/-- Every update position lands inside the operand, at `land j`. -/
theorem resultIdx_land (off : Nat) (hoff : off + 1024 ≤ 3072) (idx : IVec S1 32)
    (hidx : idx (ix1 (0 : Fin 1)) = BitVec.ofNat 32 off) (j : S8x4096x1024.Idx) :
    bandDims.resultIdx? j idx = some (land off hoff j) := by
  have hs := start_add_window off hoff idx hidx j
  unfold ScatterDims.resultIdx?
  rw [dif_pos (fun a => by rw [hs a]; have := (land off hoff j a).isLt; constructor <;> omega)]
  congr 1; funext a; apply Fin.ext
  show (bandDims.start j idx a + bandDims.window j a).toNat = (land off hoff j a).val
  rw [hs a]; exact Int.toNat_natCast _

/-- Distinct update positions land on distinct operand positions. -/
theorem land_injective (off : Nat) (hoff : off + 1024 ≤ 3072) : Function.Injective (land off hoff) := by
  intro j j' h
  funext a
  match a with
  | ⟨0, _⟩ => exact congrFun h 0
  | ⟨1, _⟩ => exact congrFun h 1
  | ⟨2, _⟩ =>
    have h2 : off + (j 2).val = off + (j' 2).val := congrArg Fin.val (congrFun h 2)
    apply Fin.ext
    show (j 2).val = (j' 2).val
    omega

/-- The reference's banded update (a scatter of an 8 × 4096 × 1024 update into columns `off … off + 1023` of the
    8 × 4096 × 3072 operand, its one start index the word `off`): inside the band the operand's element is combined
    with the update's element of the same batch and row at the column less `off`. -/
theorem scatter_in_band (off : Nat) (hoff : off + 1024 ≤ 3072) (f : α → α → α) (x : S8x4096x3072.Idx → α)
    (idx : IVec S1 32) (hidx : idx (ix1 (0 : Fin 1)) = BitVec.ofNat 32 off) (upd : S8x4096x1024.Idx → α)
    (b : Fin 8) (n : Fin 4096) (j : Fin 1024) :
    Host.scatter scatter_S8x4096x3072_S1_S8x4096x1024_012_n_2_0 f x idx upd (ix3 b n (⟨off + j.val, by have := j.isLt; omega⟩ : Fin 3072))
      = f (x (ix3 b n (⟨off + j.val, by have := j.isLt; omega⟩ : Fin 3072))) (upd (ix3 b n j)) := by
  exact Cert.LibScatter.scatter_hit bandDims f x idx upd (land off hoff) (resultIdx_land off hoff idx hidx)
    (land_injective off hoff) (ix3 b n j)

/-- Outside the band the operand's element is kept. -/
theorem scatter_off_band (off : Nat) (hoff : off + 1024 ≤ 3072) (f : α → α → α) (x : S8x4096x3072.Idx → α)
    (idx : IVec S1 32) (hidx : idx (ix1 (0 : Fin 1)) = BitVec.ofNat 32 off) (upd : S8x4096x1024.Idx → α)
    (b : Fin 8) (n : Fin 4096) (o : Fin 3072) (ho : o.val < off ∨ off + 1024 ≤ o.val) :
    Host.scatter scatter_S8x4096x3072_S1_S8x4096x1024_012_n_2_0 f x idx upd (ix3 b n o) = x (ix3 b n o) := by
  refine Cert.LibScatter.scatter_miss bandDims f x idx upd (land off hoff) (resultIdx_land off hoff idx hidx)
    (ix3 b n o) (fun j h => ?_)
  have h2 : off + (j 2).val = o.val := congrArg Fin.val (congrFun h 2)
  have hj : (j 2).val < 1024 := (j 2).isLt
  omega

end Cert.ReferenceIdeal.Bands

end
-- ==== Proof.RefSide.lean ====
/-
  The reference, read one operation at a time, is the specified function: its base projection is
  `∑ₖ x[b,n,k] · w[o,k] + bias[o]`; each of its two updates is the product through eight ranks of its selected tables,
  scaled by the constant `c1`; and its two banded additions put the first update on columns below 1024 and the second
  on columns from 2048 on, leaving the middle columns at the base projection. The selected tables are kept as they
  are: nothing here looks inside the selection.
-/
import proofs.«425949_j3805341024603_2_alg».proof.Proof.Gen.ReferenceIdeal.Read
import proofs.«425949_j3805341024603_2_alg».proof.Proof.ScatterBands
import proofs.«425949_j3805341024603_2_alg».proof.Proof.Spec

noncomputable section

namespace Cert.ReferenceIdeal.RefSide

open Cert.ReferenceIdeal Cert.ReferenceIdeal.Gen Cert.ReferenceIdeal.Read Idealize.ShloMosaic Idealize.ShloMosaic.ValueIdx

/-- The first banded update starts at column 0: its one start index is the word 0. -/
theorem start_first : val_main_v51 (F := Ideal) (ix1 (0 : Fin 1)) = BitVec.ofNat 32 0 := by
  rw [val_main_v51_apply, val_main_c_9_apply]

/-- The second banded update starts at column 2048: its one start index is the word 2048. -/
theorem start_second : val_main_v55 (F := Ideal) (ix1 (0 : Fin 1)) = BitVec.ofNat 32 2048 := by
  rw [val_main_v55_apply, val_main_c_11_apply]

/-- The projection-plus-bias stage at batch `b`, row `n`, column `o` is the specified base projection. -/
theorem base_at (x0 : (⟨S8x4096x1024, .f32⟩ : BufTy).Contents (Elt Ideal)) (x1 : (⟨S3072x1024, .f32⟩ : BufTy).Contents (Elt Ideal))
    (x2 : (⟨S3072, .f32⟩ : BufTy).Contents (Elt Ideal)) (b : Fin 8) (n : Fin 4096) (o : Fin 3072) :
    val_main_v3 (F := Ideal) x0 x1 x2 (ix3 b n o) = Cert.LoraSpec.base x0 x1 x2 b n o := by
  have el : ∀ k : Fin 1024, lidx_main_v0 (ix3 b n o) k = ix3 b n k := fun k => funext fun a => Fin.ext (by
    match a with | ⟨0, _⟩ => rfl | ⟨1, _⟩ => rfl | ⟨2, _⟩ => rfl)
  have er : ∀ k : Fin 1024, ridx_main_v0 (ix3 b n o) k = ix2 o k := fun k => funext fun a => Fin.ext (by
    match a with | ⟨0, _⟩ => rfl | ⟨1, _⟩ => rfl)
  have eb : idx_main_v1 (idx_main_v2 (ix3 b n o)) = ix1 o := funext fun a => Fin.ext (by
    match a with | ⟨0, _⟩ => rfl)
  rw [val_main_v3_apply, val_main_v0_apply, val_main_v2_apply, val_main_v1_apply, eb]
  simp only [el, er, Ideal.addf_def]
  rfl

/-- A two-stage product through the 8-wide bottleneck, read at batch `b`, row `n`, column `j`, is the specified
    rank-8 update of the two tables it contracts with (first pair of tables). -/
theorem lora_first_at (x0 : (⟨S8x4096x1024, .f32⟩ : BufTy).Contents (Elt Ideal)) (x3 : (⟨S16x1024x8, .f32⟩ : BufTy).Contents (Elt Ideal))
    (x4 : (⟨S16x8x1024, .f32⟩ : BufTy).Contents (Elt Ideal)) (x7 : (⟨S8x1, .i32⟩ : BufTy).Contents (Elt Ideal))
    (x8 : (⟨S16, .i1⟩ : BufTy).Contents (Elt Ideal)) (b : Fin 8) (n : Fin 4096) (j : Fin 1024) :
    val_main_v46 (F := Ideal) x0 x3 x4 x7 x8 (ix3 b n j)
      = Cert.LoraSpec.lora x0 (val_main_v20 (F := Ideal) x3 x7 x8) (val_main_v28 (F := Ideal) x4 x7 x8) b n j := by
  have e1 : ∀ r : Fin 8, lidx_main_v46 (ix3 b n j) r = ix3 b n r := fun r => funext fun a => Fin.ext (by
    match a with | ⟨0, _⟩ => rfl | ⟨1, _⟩ => rfl | ⟨2, _⟩ => rfl)
  have e2 : ∀ r : Fin 8, ridx_main_v46 (ix3 b n j) r = ix3 b r j := fun r => funext fun a => Fin.ext (by
    match a with | ⟨0, _⟩ => rfl | ⟨1, _⟩ => rfl | ⟨2, _⟩ => rfl)
  have e3 : ∀ (r : Fin 8) (k : Fin 1024), lidx_main_v45 (ix3 b n r) k = ix3 b n k := fun r k => funext fun a => Fin.ext (by
    match a with | ⟨0, _⟩ => rfl | ⟨1, _⟩ => rfl | ⟨2, _⟩ => rfl)
  have e4 : ∀ (r : Fin 8) (k : Fin 1024), ridx_main_v45 (ix3 b n r) k = ix3 b k r := fun r k => funext fun a => Fin.ext (by
    match a with | ⟨0, _⟩ => rfl | ⟨1, _⟩ => rfl | ⟨2, _⟩ => rfl)
  rw [val_main_v46_apply]
  simp only [e1, e2, val_main_v45_apply, e3, e4]
  rfl

/-- The same for the second pair of tables. -/
theorem lora_second_at (x0 : (⟨S8x4096x1024, .f32⟩ : BufTy).Contents (Elt Ideal)) (x5 : (⟨S16x1024x8, .f32⟩ : BufTy).Contents (Elt Ideal))
    (x6 : (⟨S16x8x1024, .f32⟩ : BufTy).Contents (Elt Ideal)) (x7 : (⟨S8x1, .i32⟩ : BufTy).Contents (Elt Ideal))
    (x8 : (⟨S16, .i1⟩ : BufTy).Contents (Elt Ideal)) (b : Fin 8) (n : Fin 4096) (j : Fin 1024) :
    val_main_v48 (F := Ideal) x0 x5 x6 x7 x8 (ix3 b n j)
      = Cert.LoraSpec.lora x0 (val_main_v36 (F := Ideal) x5 x7 x8) (val_main_v44 (F := Ideal) x6 x7 x8) b n j := by
  have e1 : ∀ r : Fin 8, lidx_main_v48 (ix3 b n j) r = ix3 b n r := fun r => funext fun a => Fin.ext (by
    match a with | ⟨0, _⟩ => rfl | ⟨1, _⟩ => rfl | ⟨2, _⟩ => rfl)
  have e2 : ∀ r : Fin 8, ridx_main_v48 (ix3 b n j) r = ix3 b r j := fun r => funext fun a => Fin.ext (by
    match a with | ⟨0, _⟩ => rfl | ⟨1, _⟩ => rfl | ⟨2, _⟩ => rfl)
  have e3 : ∀ (r : Fin 8) (k : Fin 1024), lidx_main_v47 (ix3 b n r) k = ix3 b n k := fun r k => funext fun a => Fin.ext (by
    match a with | ⟨0, _⟩ => rfl | ⟨1, _⟩ => rfl | ⟨2, _⟩ => rfl)
  have e4 : ∀ (r : Fin 8) (k : Fin 1024), ridx_main_v47 (ix3 b n r) k = ix3 b k r := fun r k => funext fun a => Fin.ext (by
    match a with | ⟨0, _⟩ => rfl | ⟨1, _⟩ => rfl | ⟨2, _⟩ => rfl)
  rw [val_main_v48_apply]
  simp only [e1, e2, val_main_v47_apply, e3, e4]
  rfl

/-- The reference's result is the specified function of its arguments and of its four selected tables. -/
theorem ref_out (x0 : (⟨S8x4096x1024, .f32⟩ : BufTy).Contents (Elt Ideal)) (x1 : (⟨S3072x1024, .f32⟩ : BufTy).Contents (Elt Ideal))
    (x2 : (⟨S3072, .f32⟩ : BufTy).Contents (Elt Ideal)) (x3 : (⟨S16x1024x8, .f32⟩ : BufTy).Contents (Elt Ideal))
    (x4 : (⟨S16x8x1024, .f32⟩ : BufTy).Contents (Elt Ideal)) (x5 : (⟨S16x1024x8, .f32⟩ : BufTy).Contents (Elt Ideal))
    (x6 : (⟨S16x8x1024, .f32⟩ : BufTy).Contents (Elt Ideal)) (x7 : (⟨S8x1, .i32⟩ : BufTy).Contents (Elt Ideal))
    (x8 : (⟨S16, .i1⟩ : BufTy).Contents (Elt Ideal)) :
    val_main_v56 (F := Ideal) x0 x1 x2 x3 x4 x5 x6 x7 x8
      = Cert.LoraSpec.out Cert.LoraSpec.c1 x0 x1 x2 (val_main_v20 (F := Ideal) x3 x7 x8) (val_main_v28 (F := Ideal) x4 x7 x8)
          (val_main_v36 (F := Ideal) x5 x7 x8) (val_main_v44 (F := Ideal) x6 x7 x8) := by
  funext i
  obtain ⟨b, n, o, rfl⟩ : ∃ (b : Fin 8) (n : Fin 4096) (o : Fin 3072), i = ix3 b n o := ⟨i 0, i 1, i 2, eq_ix3 i⟩
  have ho := o.isLt
  unfold val_main_v56
  by_cases h0 : o.val < 1024
  · -- first band: the second update misses the column, the first adds its element to the base projection
    obtain ⟨j, rfl⟩ : ∃ j : Fin 1024, o = Cert.LoraSpec.col0 j := ⟨⟨o.val, h0⟩, rfl⟩
    rw [Cert.LoraSpec.out_band0]
    refine (Bands.scatter_off_band 2048 (by omega) _ _ _ start_second _ b n _ (Or.inl (by show j.val < 2048; omega))).trans ?_
    unfold val_main_v52
    have h := Bands.scatter_in_band (α := Elt Ideal .f32) 0 (by omega) (FloatOps.addf (F := Ideal) (φ := .f32)) (val_main_v3 (F := Ideal) x0 x1 x2) (val_main_v51 (F := Ideal)) start_first
      (val_main_v50 (F := Ideal) x0 x3 x4 x7 x8) b n j
    simp only [Nat.zero_add] at h
    refine h.trans ?_
    rw [base_at, val_main_v50_apply, val_main_v49_apply, val_main_cst_apply, lora_first_at]
    rfl
  · by_cases h1 : o.val < 2048
    · -- middle band: both updates miss the column, the base projection is kept
      obtain ⟨j, rfl⟩ : ∃ j : Fin 1024, o = Cert.LoraSpec.col1 j :=
        ⟨⟨o.val - 1024, by omega⟩, Fin.ext (by show o.val = 1024 + (o.val - 1024); omega)⟩
      rw [Cert.LoraSpec.out_band1]
      refine (Bands.scatter_off_band 2048 (by omega) _ _ _ start_second _ b n _ (Or.inl h1)).trans ?_
      unfold val_main_v52
      refine (Bands.scatter_off_band 0 (by omega) _ _ _ start_first _ b n _ (Or.inr (by omega))).trans ?_
      exact base_at x0 x1 x2 b n _
    · -- last band: the first update misses the column, the second adds its element to the base projection
      obtain ⟨j, rfl⟩ : ∃ j : Fin 1024, o = Cert.LoraSpec.col2 j :=
        ⟨⟨o.val - 2048, by omega⟩, Fin.ext (by show o.val = 2048 + (o.val - 2048); omega)⟩
      rw [Cert.LoraSpec.out_band2]
      refine (Bands.scatter_in_band (α := Elt Ideal .f32) 2048 (by omega) (FloatOps.addf (F := Ideal) (φ := .f32))
        (val_main_v52 (F := Ideal) x0 x1 x2 x3 x4 x7 x8) (val_main_v55 (F := Ideal)) start_second
        (val_main_v54 (F := Ideal) x0 x5 x6 x7 x8) b n j).trans ?_
      have hb : val_main_v52 (F := Ideal) x0 x1 x2 x3 x4 x7 x8 (ix3 b n (Cert.LoraSpec.col2 j))
          = Cert.LoraSpec.base x0 x1 x2 b n (Cert.LoraSpec.col2 j) := by
        unfold val_main_v52
        refine (Bands.scatter_off_band 0 (by omega) _ _ _ start_first _ b n _ (Or.inr (by show 0 + 1024 ≤ 2048 + j.val; omega))).trans ?_
        exact base_at x0 x1 x2 b n _
      rw [hb, val_main_v54_apply, val_main_v53_apply, val_main_cst_10_apply, lora_second_at]
      rfl

end Cert.ReferenceIdeal.RefSide

end
-- ==== Proof.PreDecode.lean ====
/-
  The precondition is a conjunction of "all entries satisfy …" tests; its last conjunct says that every selecting
  index `idx[b]`, read as a signed 32-bit word, satisfies `-16 ≤ idx[b]` and `idx[b] < 16`. Here that conjunct is read
  back, entry by entry.
-/
import proofs.«425949_j3805341024603_2_alg».proof.Defs
import proofs.«425949_j3805341024603_2_alg».proof.Proof.Gen.Pre_finite_inputs
import proofs.«425949_j3805341024603_2_alg».proof.Proof.Gen.KernelIdeal
import proofs.«425949_j3805341024603_2_alg».proof.Proof.Spec
import Idealize.ShloMosaic.Lib.ValueIdx
import Idealize.ShloMosaic.Lib.ReduceAll
import Idealize.ShloMosaic.Lib.StableHlo.Predicate

noncomputable section

namespace Cert.Proof.PreDecode

open Idealize.ShloMosaic Idealize.ShloMosaic.ValueIdx Idealize.SL.Sem

/-- The precondition's last conjunct, read: every selecting index is in `[-16, 16)`. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.LoraSpec.InRange (m (c.tc.loc Cert.KernelIdeal.main_arg7)) := by
  -- the scalar result has one index
  haveI : Subsingleton Cert.Pre_finite_inputs.S_.Idx := ⟨fun a b => funext fun d => d.elim0⟩
  -- the predicate at its one index, its printed text opened: a conjunction of eight `all`s
  have h0 := congrFun (h c) ValueIdx.ix0
  dsimp only [Cert.Pre_finite_inputs.fn, Cert.Pre_finite_inputs.fn_part1, Cert.Pre_finite_inputs.fn_part2] at h0
  -- keep the last conjunct: `all ((idx ≥ -16) ∧ (idx < 16))` over the 8 × 1 array
  obtain ⟨-, h1⟩ := IntOp.andi_eq_one.1 h0
  intro b
  -- an `all` that holds, holds at every index
  have h2 := Host.reduce_andi_all _ _ _ _ ix0 h1 (ix2 b (0 : Fin 1))
  obtain ⟨hge, hlt⟩ := IntOp.andi_eq_one.1 h2
  -- the two signed comparisons against the broadcast constants, read as integers
  have hge' : (4294967280#32 : BitVec 32).toInt ≤ (m (c.tc.loc Cert.KernelIdeal.main_arg7) (ix2 b (0 : Fin 1))).toInt :=
    IntOp.cmpi_sge.1 hge
  have hlt' : (m (c.tc.loc Cert.KernelIdeal.main_arg7) (ix2 b (0 : Fin 1))).toInt < (16#32 : BitVec 32).toInt :=
    IntOp.cmpi_slt.1 hlt
  -- the word 2³² − 16 reads −16 signed
  have e1 : (4294967280#32 : BitVec 32).toInt = -16 := by decide
  have e2 : (16#32 : BitVec 32).toInt = 16 := by decide
  rw [e1] at hge'
  rw [e2] at hlt'
  exact ⟨hge', hlt'⟩

end Cert.Proof.PreDecode

end
-- ==== Proof.lean ====
/-
  The certificate of the fused low-rank projection against its reference.

  Both programs compute, for batch `b`, row `n` and column `o`, the base projection `∑ₖ x[b,n,k] · w[o,k] + bias[o]`,
  and add to its first and last 1024 columns a rank-8 update `∑ᵣ (∑ₖ x[b,n,k] · A[b,k,r]) · B[b,r,j]` whose tables are
  selected per batch from pools of sixteen by an index. The kernel fuses the two updates into one product through
  sixteen ranks against a block-diagonal table; the sum over sixteen splits into the two sums over eight, the
  foreign terms being products with zero (Proof/Spec.lean). The two programs select the tables differently outside
  the index range (one clamps, one fills): the precondition keeps every index in `[-16, 16)`, where both wrap a
  negative index by sixteen and select the same row.

  The three frames are the generated ones (the reference's is its run with the result dropped); the idealization's
  ledger is empty.
-/
import proofs.«425949_j3805341024603_2_alg».proof.Defs
import proofs.«425949_j3805341024603_2_alg».proof.Proof.Gen.Kernel
import proofs.«425949_j3805341024603_2_alg».proof.Proof.Gen.Kernel.Frame
import proofs.«425949_j3805341024603_2_alg».proof.Proof.Gen.KernelIdeal
import proofs.«425949_j3805341024603_2_alg».proof.Proof.Gen.KernelIdeal.Frame
import proofs.«425949_j3805341024603_2_alg».proof.Proof.Gen.ReferenceIdeal
import proofs.«425949_j3805341024603_2_alg».proof.Proof.Gen.Pre_finite_inputs
import proofs.«425949_j3805341024603_2_alg».proof.Proof.Gen.ReferenceIdeal.Run
import proofs.«425949_j3805341024603_2_alg».proof.Proof.Gen.ReferenceIdeal.Read
import proofs.«425949_j3805341024603_2_alg».proof.Proof.Blocks
import proofs.«425949_j3805341024603_2_alg».proof.Proof.RefSide
import proofs.«425949_j3805341024603_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the specified result: the kernel's by its blocks, the reference's by reading its operations;
    the arguments agree, so the two are the same array. -/
theorem algebraic : Cert.algebraic_KernelIdeal_ReferenceIdeal := by
  intro m ρ m' ρ' hpre hagree
  have hr := fun c => Cert.Proof.PreDecode.inRange_of_pre m hpre c
  refine ⟨fun c => Cert.KernelIdeal.Blocks.spec m c, Cert.KernelIdeal.Blocks.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v56_eq, Cert.ReferenceIdeal.RefSide.ref_out, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
